-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S2000x64 : Shape := ⟨2, ![2000, 64]⟩
abbrev S2000x128 : Shape := ⟨2, ![2000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S3936 : Shape := ⟨1, ![3936]⟩
abbrev S1703936 : Shape := ⟨1, ![1703936]⟩
abbrev S1703936x1 : Shape := ⟨2, ![1703936, 1]⟩
abbrev S1703936x64 : Shape := ⟨2, ![1703936, 64]⟩
abbrev S8192x64 : Shape := ⟨2, ![8192, 64]⟩
abbrev S8192x1 : Shape := ⟨2, ![8192, 1]⟩
abbrev S1x64 : Shape := ⟨2, ![1, 64]⟩

abbrev nBuf : Space → Nat
  | .hbm => 75
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S100000x64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S3936, .i32⟩
  | .hbm, ⟨50, _⟩ => ⟨S1703936, .i32⟩
  | .hbm, ⟨51, _⟩ => ⟨S_, .i32⟩
  | .hbm, ⟨52, _⟩ => ⟨S3936, .i32⟩
  | .hbm, ⟨53, _⟩ => ⟨S1703936, .i32⟩
  | .hbm, ⟨54, _⟩ => ⟨S_, .f32⟩
  | .hbm, ⟨55, _⟩ => ⟨S3936, .f32⟩
  | .hbm, ⟨56, _⟩ => ⟨S1703936, .f32⟩
  | .hbm, ⟨57, _⟩ => ⟨S1703936x1, .f32⟩
  | .hbm, ⟨58, _⟩ => ⟨S_, .i32⟩
  | .hbm, ⟨59, _⟩ => ⟨S1703936, .i32⟩
  | .hbm, ⟨60, _⟩ => ⟨S1703936, .i1⟩
  | .hbm, ⟨61, _⟩ => ⟨S_, .i32⟩
  | .hbm, ⟨62, _⟩ => ⟨S1703936, .i32⟩
  | .hbm, ⟨63, _⟩ => ⟨S1703936, .i32⟩
  | .hbm, ⟨64, _⟩ => ⟨S1703936, .i32⟩
  | .hbm, ⟨65, _⟩ => ⟨S1703936x1, .i32⟩
  | .hbm, ⟨66, _⟩ => ⟨S1703936x64, .f32⟩
  | .hbm, ⟨67, _⟩ => ⟨S1703936x64, .f32⟩
  | .hbm, ⟨68, _⟩ => ⟨S_, .f32⟩
  | .hbm, ⟨69, _⟩ => ⟨S100000x64, .f32⟩
  | .hbm, ⟨70, _⟩ => ⟨S1703936x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S1x128, .f32⟩
  | .local _ .vmem, ⟨4, _⟩ => ⟨S128x64, .f32⟩
  | .local _ .vmem, ⟨5, _⟩ => ⟨S2000x64, .f32⟩
  | .local _ .vmem, ⟨6, _⟩ => ⟨S2000x64, .f32⟩
  | .local _ .vmem, ⟨7, _⟩ => ⟨S8192x64, .f32⟩
  | .local _ .vmem, ⟨8, _⟩ => ⟨S8192x64, .f32⟩
  | .local _ .vmem, ⟨9, _⟩ => ⟨S8192x1, .f32⟩
  | .local _ .vmem, ⟨10, _⟩ => ⟨S8192x1, .f32⟩
  | .local _ .vmem, ⟨11, _⟩ => ⟨S8192x64, .f32⟩
  | .local _ .vmem, ⟨12, _⟩ => ⟨S8192x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S3936 : S_.BroadcastsInDim S3936 (![] : Fin 0 → Fin S3936.rank)
  concatenates_S1700000_S3936_S1703936_d0 : Shape.Concatenates [S1700000, S3936] S1703936 0
  shapeCasts_S1703936_S1703936x1 : S1703936.ShapeCasts S1703936x1
  bcast_S_S1703936 : S_.BroadcastsInDim S1703936 (![] : Fin 0 → Fin S1703936.rank)
  bcast_S1703936_S1703936x1_0 : S1703936.BroadcastsInDim S1703936x1 (![0] : Fin 1 → Fin S1703936x1.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S2000x64_S64x128_S2000x128_1_0_0_1_n_n_wf : DotDims.WF S2000x64 S64x128 S2000x128 [1] [0] [0] [1] [] []
  dot_S2000x128_S128x64_S2000x64_1_0_0_1_n_n_wf : DotDims.WF S2000x128 S128x64 S2000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1703936x1_S1703936x64_1_0_n_n_0_1_164_wf : GatherDims.WF S100000x64 S1703936x1 S1703936x64 [1] [0] [] [0] [] 1 ![1, 64]
  scatter_S100000x64_S1703936x1_S1703936x64_1_0_0_1_wf : ScatterDims.WF S100000x64 S1703936x1 S1703936x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S100000x64.size a
  hwx0_4 : ∀ i : grid0.Coords, EltTy.bits .f32 = 32 ∨ (Rect.block (s := S100000x64) S2000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S1703936x64.size a
  hwx1_0 : ∀ i : grid1.Coords, EltTy.bits .f32 = 32 ∨ (Rect.block (s := S1703936x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1703936x1.size a
  hwx1_1 : ∀ i : grid1.Coords, EltTy.bits .f32 = 32 ∨ (Rect.block (s := S1703936x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S1703936x64.size a
  hwx1_2 : ∀ i : grid1.Coords, EltTy.bits .f32 = 32 ∨ (Rect.block (s := S1703936x64) S8192x64.size (cc1_transform_2 i) (hinb1_2 i)).WholeWords (EltTy.packing .f32)

variable [Facts₀]

def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1703936x1_S1703936x64_1_0_n_n_0_1_164 : GatherDims S100000x64 S1703936x1 S1703936x64 where
  offsetDims := [1]
  collapsedSliceDims := [0]
  operandBatchingDims := []
  startIndicesBatchingDims := []
  startIndexMap := [0]
  indexVectorDim := 1
  sliceSizes := ![1, 64]
  wf := gather_S100000x64_S1703936x1_S1703936x64_1_0_n_n_0_1_164_wf
def scatter_S100000x64_S1703936x1_S1703936x64_1_0_0_1 : ScatterDims S100000x64 S1703936x1 S1703936x64 where
  updateWindowDims := [1]
  insertedWindowDims := [0]
  scatterDimsToOperandDims := [0]
  indexVectorDim := 1
  wf := scatter_S100000x64_S1703936x1_S1703936x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v45) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000x128 : Shape := ⟨2, ![100000, 128]⟩
abbrev S1x128 : Shape := ⟨2, ![1, 128]⟩
abbrev S_ : Shape := ⟨0, ![]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S_, .f32⟩
  | .hbm, ⟨11, _⟩ => ⟨S100000x128, .f32⟩
  | .hbm, ⟨12, _⟩ => ⟨S100000x128, .f32⟩
  | .hbm, ⟨13, _⟩ => ⟨S100000x64, .f32⟩
  | .hbm, ⟨14, _⟩ => ⟨S100000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S1x1600000, .i32⟩
  | .hbm, ⟨19, _⟩ => ⟨S1600000, .i32⟩
  | .hbm, ⟨20, _⟩ => ⟨S1700000, .i32⟩
  | .hbm, ⟨21, _⟩ => ⟨S_, .f32⟩
  | .hbm, ⟨22, _⟩ => ⟨S1700000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x1, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelTerm.lean ====
/-
  The arrays the second program builds on the host around its two kernels, each as ONE function of the arrays it is
  made from, at the extended reals: the edge list with its self loops (`srcT`, `dstT`), the in-degree and its inverse
  square root (`degT`, `dinvT`), the edge weights (`normT`), these three lengthened by 3,936 zeros (`srcP`, `dstP`,
  `normP`), the weights as a column (`normCol`), the rows of the projected table the lengthened source list reads
  (`gathered`), and what the program returns from the scaled rows: their segment sum by the lengthened destination
  list plus the bias (`tail`).
-/
import proofs.«108850_j59399397704019_1_alg».proof.Proof.Gen.KernelIdeal
import Idealize.ShloMosaic.PureOps.Ideal

noncomputable section

namespace Cert.KernelIdeal.Term

open Idealize.ShloMosaic Cert.KernelIdeal Cert.KernelIdeal.Facts₀

/-- Row a (0: sources, 1: destinations) of the edge array, as a vector of 1,600,000 words. -/
def edgeRow0 (ei : IVec S2x1600000 32) : IVec S1600000 32 :=
  shapeCast S1600000 (extractStridedSlice S1x1600000 ![0, 0] ei slices_S2x1600000_S1x1600000_0_0) shapeCasts_S1x1600000_S1600000
def edgeRow1 (ei : IVec S2x1600000 32) : IVec S1600000 32 :=
  shapeCast S1600000 (extractStridedSlice S1x1600000 ![1, 0] ei slices_S2x1600000_S1x1600000_1_0) shapeCasts_S1x1600000_S1600000

/-- The source words of the 1,700,000 edges: the given ones, then node n for self loop n. -/
def srcT (ei : IVec S2x1600000 32) : IVec S1700000 32 :=
  concatenate S1700000 0 [⟨S1600000, edgeRow0 ei⟩, ⟨S100000, iotaInDim S100000 32 0⟩] concatenates_S1600000_S100000_S1700000_d0
/-- The destination words of the 1,700,000 edges. -/
def dstT (ei : IVec S2x1600000 32) : IVec S1700000 32 :=
  concatenate S1700000 0 [⟨S1600000, edgeRow1 ei⟩, ⟨S100000, iotaInDim S100000 32 0⟩] concatenates_S1600000_S100000_S1700000_d0

/-- The in-degree of every node: ones summed by destination. -/
def degT (ei : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (dstT ei))
    (broadcastInDim S1700000 ![] bcast_S_S1700000 (constant (F := Ideal) S_ .f32 0x3F800000#32))

/-- Its inverse square root where positive, zero elsewhere. -/
def dinvT (ei : IVec S2x1600000 32) : FVec Ideal S100000 .f32 :=
  select (cmpf .ogt (degT ei) (broadcastInDim S100000 ![] bcast_S_S100000 (constant (F := Ideal) S_ .f32 0x00000000#32)))
    (Host.rsqrt (degT ei))
    (broadcastInDim S100000 ![] bcast_S_S100000 (id (constant (F := Ideal) S_ .f32 0x00000000#32)))

/-- A vector of row-number words the NumPy way: 100000 added to the negative ones. -/
def wrapT (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- The weight of every edge: the inverse-root degrees of its two ends multiplied. -/
def normT (ei : IVec S2x1600000 32) : FVec Ideal S1700000 .f32 :=
  mulf (Host.gather gather_S100000_S1700000x1_S1700000_n_0_n_n_0_1_1 (dinvT ei)
          (broadcastInDim S1700000x1 ![0] bcast_S1700000_S1700000x1_0 (wrapT (srcT ei))))
       (Host.gather gather_S100000_S1700000x1_S1700000_n_0_n_n_0_1_1 (dinvT ei)
          (broadcastInDim S1700000x1 ![0] bcast_S1700000_S1700000x1_0 (wrapT (dstT ei))))

/-- The three edge vectors lengthened by 3,936 zeros to a whole number of blocks of 8192. -/
def srcP (ei : IVec S2x1600000 32) : IVec S1703936 32 :=
  concatenate S1703936 0 [⟨S1700000, srcT ei⟩, ⟨S3936, broadcastInDim S3936 ![] bcast_S_S3936 (constantI S_ 32 0#32)⟩]
    concatenates_S1700000_S3936_S1703936_d0
def dstP (ei : IVec S2x1600000 32) : IVec S1703936 32 :=
  concatenate S1703936 0 [⟨S1700000, dstT ei⟩, ⟨S3936, broadcastInDim S3936 ![] bcast_S_S3936 (constantI S_ 32 0#32)⟩]
    concatenates_S1700000_S3936_S1703936_d0
def normP (ei : IVec S2x1600000 32) : FVec Ideal S1703936 .f32 :=
  concatenate S1703936 0 [⟨S1700000, normT ei⟩,
      ⟨S3936, broadcastInDim S3936 ![] bcast_S_S3936 (constant (F := Ideal) S_ .f32 0x00000000#32)⟩]
    concatenates_S1700000_S3936_S1703936_d0

/-- The lengthened weights as a column, the second kernel's second operand. -/
def normCol (ei : IVec S2x1600000 32) : FVec Ideal S1703936x1 .f32 :=
  shapeCast S1703936x1 (normP ei) shapeCasts_S1703936_S1703936x1

/-- The lengthened source list the NumPy way, as a column of start indices. -/
def srcIdx (ei : IVec S2x1600000 32) : IVec S1703936x1 32 :=
  broadcastInDim S1703936x1 ![0] bcast_S1703936_S1703936x1_0
    (select (cmpi .slt (srcP ei) (broadcastInDim S1703936 ![] bcast_S_S1703936 (constantI S_ 32 0#32)))
      (addi (srcP ei) (broadcastInDim S1703936 ![] bcast_S_S1703936 (constantI S_ 32 100000#32))) (srcP ei))

/-- The rows of the projected table `H` the lengthened source list reads: the second kernel's first operand. -/
def gathered (H : FVec Ideal S100000x64 .f32) (ei : IVec S2x1600000 32) : FVec Ideal S1703936x64 .f32 :=
  Host.gather gather_S100000x64_S1703936x1_S1703936x64_1_0_n_n_0_1_164 H (srcIdx ei)

/-- What the program returns from the scaled rows `M`: their sum by the lengthened destination list into a zero
    table, plus the bias on every row. -/
def tail (M : FVec Ideal S1703936x64 .f32) (ei : IVec S2x1600000 32) (b2 : FVec Ideal S64 .f32) : FVec Ideal S100000x64 .f32 :=
  addf (Host.scatterAdd scatter_S100000x64_S1703936x1_S1703936x64_1_0_0_1
          (broadcastInDim S100000x64 ![] bcast_S_S100000x64 (constant (F := Ideal) S_ .f32 0x00000000#32))
          (broadcastInDim S1703936x1 ![0] bcast_S1703936_S1703936x1_0 (dstP ei)) M)
       (broadcastInDim S100000x64 ![0, 1] bcast_S1x64_S100000x64_0_1 (broadcastInDim S1x64 ![1] bcast_S64_S1x64_1 b2))

end Cert.KernelIdeal.Term

end
-- ==== Proof.LibPlainOps.lean ====
/-
  An operation of an outlined function is a plain operation.

  The small functions a traced program outlines (where, round, clip, pad, …) name each buffer by a reference that
  carries the tensor type of the value it holds, and read and write the buffer's contents through a transport along the
  equation "the buffer's type is that type". When the carried type IS the reference's own type — which is what a call
  site builds, the equation being `rfl` — both transports are the identity, and the operation is the plain operation at
  the same buffers with the same function.

  Rewriting by these equations BEFORE the operations' results are composed keeps every value a plain term of the
  arguments. That matters next to a reduction over many elements: a transport left above such a term makes a later
  definitional comparison unfold the other side first, down to pointwise float comparisons, which evaluate the reduction.
  Here each side of each equation is a single operation, so `rfl` costs nothing.
-/
import Idealize.ShloMosaic.Lib.StableHlo

namespace Cert.PlainOps

open Idealize.ShloMosaic Idealize.ShloMosaic.StableHlo

variable {sig : RefSig} {τ : Topo} {Val : EltTy → Type}

/-- A one-operand operation of an outlined function, at references whose carried types are their own, is the plain
    one-operand operation. -/
theorem tunary_eq (a y : Ref sig .tc) (ha : a.ty = a.ty) (ha2 : a.space ≠ .host) (ha3 : a.isScoped = false)
    (hy : y.ty = y.ty) (hy2 : y.space ≠ .host) (hy3 : y.isScoped = false)
    (f : a.ty.Contents Val → y.ty.Contents Val) :
    (TRef.unary (τ := τ) (TRef.of a ha ha2 ha3) (TRef.of y hy hy2 hy3) f : HloOp τ sig Val)
      = StableHlo.unary a y f (TRef.of a ha ha2 ha3).dev (TRef.of y hy hy2 hy3).dev := rfl

/-- The same for a two-operand operation. -/
theorem tbinary_eq (a b y : Ref sig .tc) (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : a.ty.Contents Val → b.ty.Contents Val → y.ty.Contents Val) :
    (TRef.binary (τ := τ) (TRef.of a ha ha2 ha3) (TRef.of b hb hb2 hb3) (TRef.of y hy hy2 hy3) f : HloOp τ sig Val)
      = StableHlo.binary a b y f (TRef.of a ha ha2 ha3).dev (TRef.of b hb hb2 hb3).dev (TRef.of y hy hy2 hy3).dev := rfl

/-- The same for a three-operand operation (a select: the condition first). -/
theorem tternary_eq (c a b y : Ref sig .tc) (hc : c.ty = c.ty) (hc2 : c.space ≠ .host) (hc3 : c.isScoped = false)
    (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : c.ty.Contents Val → a.ty.Contents Val → b.ty.Contents Val → y.ty.Contents Val) :
    (TRef.ternary (τ := τ) (TRef.of c hc hc2 hc3) (TRef.of a ha ha2 ha3) (TRef.of b hb hb2 hb3) (TRef.of y hy hy2 hy3) f :
        HloOp τ sig Val)
      = StableHlo.ternary c a b y f (TRef.of c hc hc2 hc3).dev (TRef.of a ha ha2 ha3).dev (TRef.of b hb hb2 hb3).dev
          (TRef.of y hy hy2 hy3).dev := rfl

/-- The same for an operation with no operand (a constant). -/
theorem tnullary_eq (y : Ref sig .tc) (hy : y.ty = y.ty) (hy2 : y.space ≠ .host) (hy3 : y.isScoped = false)
    (v : y.ty.Contents Val) :
    (TRef.nullary (τ := τ) (TRef.of y hy hy2 hy3) v : HloOp τ sig Val)
      = StableHlo.nullary y v (TRef.of y hy hy2 hy3).dev := rfl

end Cert.PlainOps
-- ==== Proof.KernelHost.lean ====
/-
  The arrays the second program's host operations build, read back at the boundaries of its run: what the first kernel
  finds in its operands (three arguments as launched, the first bias as a one-row array), what the second kernel finds in
  its operands (the rows of the projected table the lengthened source list reads, the lengthened edge weights as a
  column), and the result buffer after the last stretch (the scaled rows summed by the lengthened destination list, plus
  the second bias). Each is one of the pure functions of KernelTerm.lean applied to the launch contents and to what a
  kernel left, read stretch by stretch: an operation's result is its function at its operands' buffers, and a buffer no
  operation of a stretch writes is what it was before the stretch.
-/
import proofs.«108850_j59399397704019_1_alg».proof.Proof.Gen.KernelIdeal.Frame
import proofs.«108850_j59399397704019_1_alg».proof.Proof.KernelTerm
import proofs.«108850_j59399397704019_1_alg».proof.Proof.LibPlainOps
import Idealize.ShloMosaic.PureOps.Ideal
import Idealize.ShloMosaic.Lib.StableHlo.Run

noncomputable section

open scoped BigOperators

namespace Cert.KernelIdeal.HostRead

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- An operation's result at its own buffer is its function's value at the operands' buffers, and at any other buffer
    what was there: the two rules, rewritten with until neither applies (they reach inside a concatenation's operands). -/
local macro "results_rw" : tactic =>
  `(tactic| (repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide))))

/-! ## What the first kernel's region finds in its operands -/

theorem V1_arg0 (c : Dev nD) : V1 m ρ c main_arg0 = m ((c.tc : Thread nD τ).loc main_arg0) := by
  show StableHlo.after hostOps0 (W0 m ρ c) (Proc.devRef .tc main_arg0) = _
  after_results
theorem V1_arg2 (c : Dev nD) : V1 m ρ c main_arg2 = m ((c.tc : Thread nD τ).loc main_arg2) := by
  show StableHlo.after hostOps0 (W0 m ρ c) (Proc.devRef .tc main_arg2) = _
  after_results
theorem V1_arg4 (c : Dev nD) : V1 m ρ c main_arg4 = m ((c.tc : Thread nD τ).loc main_arg4) := by
  show StableHlo.after hostOps0 (W0 m ρ c) (Proc.devRef .tc main_arg4) = _
  after_results
/-- The bias as the one-row array the host reshapes it to. -/
theorem V1_v0 (c : Dev nD) :
    (V1 m ρ c main_v0 : S1x128.Idx → EReal) = shapeCast S1x128 (m ((c.tc : Thread nD τ).loc main_arg3) : S128.Idx → EReal) Facts₀.shapeCasts_S128_S1x128 := by
  show (StableHlo.after hostOps0 (W0 m ρ c) (Proc.devRef .tc main_v0) : S1x128.Idx → EReal) = _
  after_results
  rfl

/-! ## What the first kernel's region leaves for the host: the edge array and the second bias as launched, the
    projected table as written back -/

private theorem W2_arg1 (c : Dev nD) : W2 m ρ c (Proc.devRef .tc main_arg1) = m ((c.tc : Thread nD τ).loc main_arg1) := by
  refine (W2_of_ne m ρ c main_arg1 (by decide)).trans ?_
  show StableHlo.after hostOps0 (W0 m ρ c) (Proc.devRef .tc main_arg1) = _
  after_results
private theorem W2_arg5 (c : Dev nD) : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  after_results
private theorem W2_v1 (c : Dev nD) : W2 m ρ c (Proc.devRef .tc main_v1) = (dat0 (F := Ideal) (V1 m ρ) c).arrAt 4 cfg0.N :=
  W2_arr m ρ c 4

/-! ## After the first stretch: the edge list with its self loops, the in-degree, and what the selection reads -/

private theorem W3_v5 (c : Dev nD) :
    (W3 m ρ c (Proc.devRef .tc main_v5) : IVec S1700000 32) = Term.srcT (m ((c.tc : Thread nD τ).loc main_arg1)) := by
  show (StableHlo.after hostOps1 (W2 m ρ c) (Proc.devRef .tc main_v5) : IVec S1700000 32) = _
  after_results
  rw [W2_arg1]
  rfl
private theorem W3_v8 (c : Dev nD) :
    (W3 m ρ c (Proc.devRef .tc main_v8) : IVec S1700000 32) = Term.dstT (m ((c.tc : Thread nD τ).loc main_arg1)) := by
  show (StableHlo.after hostOps1 (W2 m ρ c) (Proc.devRef .tc main_v8) : IVec S1700000 32) = _
  after_results
  rw [W2_arg1]
  rfl
private theorem W3_v14 (c : Dev nD) :
    (W3 m ρ c (Proc.devRef .tc main_v14) : IVec S100000 1)
      = cmpf .ogt (Term.degT (m ((c.tc : Thread nD τ).loc main_arg1)))
          (broadcastInDim S100000 ![] Facts₀.bcast_S_S100000 (constant (F := Ideal) S_ .f32 0x00000000#32)) := by
  show (StableHlo.after hostOps1 (W2 m ρ c) (Proc.devRef .tc main_v14) : IVec S100000 1) = _
  after_results
  rw [W2_arg1]
  rfl
private theorem W3_v15 (c : Dev nD) :
    (W3 m ρ c (Proc.devRef .tc main_v15) : FVec Ideal S100000 .f32) = Host.rsqrt (Term.degT (m ((c.tc : Thread nD τ).loc main_arg1))) := by
  show (StableHlo.after hostOps1 (W2 m ρ c) (Proc.devRef .tc main_v15) : FVec Ideal S100000 .f32) = _
  after_results
  rw [W2_arg1]
  rfl
private theorem W3_cst2 (c : Dev nD) :
    (W3 m ρ c (Proc.devRef .tc main_cst_2) : FVec Ideal S_ .f32) = constant (F := Ideal) S_ .f32 0x00000000#32 := by
  show (StableHlo.after hostOps1 (W2 m ρ c) (Proc.devRef .tc main_cst_2) : FVec Ideal S_ .f32) = _
  after_results
private theorem W3_v1 (c : Dev nD) : W3 m ρ c (Proc.devRef .tc main_v1) = (dat0 (F := Ideal) (V1 m ρ) c).arrAt 4 cfg0.N := by
  refine Eq.trans ?_ (W2_v1 m ρ c)
  show StableHlo.after hostOps1 (W2 m ρ c) (Proc.devRef .tc main_v1) = _
  after_results
private theorem W3_arg5 (c : Dev nD) : W3 m ρ c (Proc.devRef .tc main_arg5) = m ((c.tc : Thread nD τ).loc main_arg5) := by
  refine Eq.trans ?_ (W2_arg5 m ρ c)
  show StableHlo.after hostOps1 (W2 m ρ c) (Proc.devRef .tc main_arg5) = _
  after_results

/-! ## After the outlined selection: the inverse square root of the in-degree; the rest as it was -/

private theorem W4_v16 (c : Dev nD) :
    (W4 m ρ c (Proc.devRef .tc main_v16) : FVec Ideal S100000 .f32) = Term.dinvT (m ((c.tc : Thread nD τ).loc main_arg1)) := by
  show (StableHlo.after hostOps1_1 (W3 m ρ c) (Proc.devRef .tc main_v16) : FVec Ideal S100000 .f32) = _
  generalize hV : W3 m ρ c = V
  simp only [hostOps1_1, Cert.PlainOps.tunary_eq, Cert.PlainOps.tternary_eq]
  after_results
  subst hV
  rw [W3_v14, W3_v15, W3_cst2]
  rfl
/-- The outlined selection writes none of the buffers the later stretches read from before it. -/
private theorem W4_keep (c : Dev nD) (r : Ref sig .tc) (h0 : r ≠ main_call0_v0) (h1 : r ≠ main_call0_v1) (h2 : r ≠ main_v16) :
    W4 m ρ c (Proc.devRef .tc r) = W3 m ρ c (Proc.devRef .tc r) := by
  show StableHlo.after hostOps1_1 (W3 m ρ c) (Proc.devRef .tc r) = _
  generalize W3 m ρ c = V
  simp only [hostOps1_1, Cert.PlainOps.tunary_eq, Cert.PlainOps.tternary_eq, StableHlo.after_cons, StableHlo.after_nil]
  rw [StableHlo.ternary_result_ne _ _ _ _ _ _ _ _ _ _ h2, StableHlo.unary_result_ne _ _ _ _ _ _ h1,
    StableHlo.unary_result_ne _ _ _ _ _ _ h0]
private theorem W4_v5 (c : Dev nD) :
    (W4 m ρ c (Proc.devRef .tc main_v5) : IVec S1700000 32) = Term.srcT (m ((c.tc : Thread nD τ).loc main_arg1)) :=
  (W4_keep m ρ c main_v5 (by decide) (by decide) (by decide)).trans (W3_v5 m ρ c)
private theorem W4_v8 (c : Dev nD) :
    (W4 m ρ c (Proc.devRef .tc main_v8) : IVec S1700000 32) = Term.dstT (m ((c.tc : Thread nD τ).loc main_arg1)) :=
  (W4_keep m ρ c main_v8 (by decide) (by decide) (by decide)).trans (W3_v8 m ρ c)
private theorem W4_v1 (c : Dev nD) : W4 m ρ c (Proc.devRef .tc main_v1) = (dat0 (F := Ideal) (V1 m ρ) c).arrAt 4 cfg0.N :=
  (W4_keep m ρ c main_v1 (by decide) (by decide) (by decide)).trans (W3_v1 m ρ c)
private theorem W4_arg5 (c : Dev nD) : W4 m ρ c (Proc.devRef .tc main_arg5) = m ((c.tc : Thread nD τ).loc main_arg5) :=
  (W4_keep m ρ c main_arg5 (by decide) (by decide) (by decide)).trans (W3_arg5 m ρ c)

/-! ## After the last stretch before the second kernel: the lengthened destination list, the second bias -/

private theorem W5_v35 (c : Dev nD) :
    (W5 m ρ c (Proc.devRef .tc main_v35) : IVec S1703936 32) = Term.dstP (m ((c.tc : Thread nD τ).loc main_arg1)) := by
  show (StableHlo.after hostOps1_2 (W4 m ρ c) (Proc.devRef .tc main_v35) : IVec S1703936 32) = _
  generalize hV : W4 m ρ c = V
  after_results_simp
  results_rw
  subst hV
  rw [W4_v8]
  rfl
private theorem W5_arg5 (c : Dev nD) : W5 m ρ c (Proc.devRef .tc main_arg5) = m ((c.tc : Thread nD τ).loc main_arg5) := by
  refine Eq.trans ?_ (W4_arg5 m ρ c)
  show StableHlo.after hostOps1_2 (W4 m ρ c) (Proc.devRef .tc main_arg5) = _
  generalize W4 m ρ c = V
  after_results_simp

/-! ## What the second kernel's region finds in its operands -/

theorem V5_v45 (c : Dev nD) :
    (V5 m ρ c main_v45 : S1703936x64.Idx → EReal)
      = Term.gathered ((dat0 (F := Ideal) (V1 m ρ) c).arrAt 4 cfg0.N) (m ((c.tc : Thread nD τ).loc main_arg1)) := by
  show (StableHlo.after hostOps1_2 (W4 m ρ c) (Proc.devRef .tc main_v45) : S1703936x64.Idx → EReal) = _
  generalize hV : W4 m ρ c = V
  after_results_simp
  results_rw
  subst hV
  rw [W4_v1, W4_v5]
  rfl
theorem V5_v38 (c : Dev nD) :
    (V5 m ρ c main_v38 : S1703936x1.Idx → EReal) = Term.normCol (m ((c.tc : Thread nD τ).loc main_arg1)) := by
  show (StableHlo.after hostOps1_2 (W4 m ρ c) (Proc.devRef .tc main_v38) : S1703936x1.Idx → EReal) = _
  generalize hV : W4 m ρ c = V
  after_results_simp
  results_rw
  subst hV
  rw [W4_v16, W4_v5, W4_v8]
  rfl

/-! ## The result buffer at the last boundary -/

theorem W7_v52 (c : Dev nD) :
    (W7 m ρ c (Proc.devRef .tc main_v52) : S100000x64.Idx → EReal)
      = Term.tail ((dat1 (F := Ideal) (V5 m ρ) c).arrAt 2 cfg1.N) (m ((c.tc : Thread nD τ).loc main_arg1))
          (m ((c.tc : Thread nD τ).loc main_arg5)) := by
  have e46 : W6 m ρ c (Proc.devRef .tc main_v46) = (dat1 (F := Ideal) (V5 m ρ) c).arrAt 2 cfg1.N := W6_arr m ρ c 2
  have e35 : (W6 m ρ c (Proc.devRef .tc main_v35) : IVec S1703936 32) = Term.dstP (m ((c.tc : Thread nD τ).loc main_arg1)) :=
    (W6_of_ne m ρ c main_v35 (by decide)).trans (W5_v35 m ρ c)
  have e5 : W6 m ρ c (Proc.devRef .tc main_arg5) = m ((c.tc : Thread nD τ).loc main_arg5) :=
    (W6_of_ne m ρ c main_arg5 (by decide)).trans (W5_arg5 m ρ c)
  show (StableHlo.after hostOps2 (W6 m ρ c) (Proc.devRef .tc main_v52) : S100000x64.Idx → EReal) = _
  after_results
  rw [e46, e35, e5]
  rfl

end Cert.KernelIdeal.HostRead

end
-- ==== Proof.Spec.lean ====
/-
  One graph-convolution layer over a node table, as both programs compute it, on the extended reals.

  A node's 64 features pass through a dense layer with a rectifier (64 → 128, bias added) and a second dense layer
  without bias (128 → 64): `proj`. Every edge n (the 1,600,000 given ones, then one self loop per node) reads the
  projected row of its source node, scales it by the edge's weight `norm n`, and adds it into the row of its
  destination node; last the output bias is added to every row: `out`. A source word is a row number the NumPy
  way (a negative one counts from the end: `wrap`), read signed and clamped into the table (`row`); a destination
  word that is no row number of the table, read signed, drops its edge.

  The second program runs the same edges followed by 3,936 more whose weight is zero: over the extended reals a
  product with zero is zero whatever the other factor, so those add nothing (`sum_pad`).
-/
import Idealize.ShloMosaic.PureOps.Ideal
import Idealize.ShloMosaic.Lib.ValueIdx

noncomputable section

open scoped BigOperators

namespace Cert.GcnSpec

open Idealize.ShloMosaic Idealize.ShloMosaic.ValueIdx

/-- The node table's shape, before and after the projection: 100000 nodes, 64 features. -/
abbrev SN : Shape := ⟨2, ![100000, 64]⟩
/-- The first layer's weights, 64 → 128. -/
abbrev SW1 : Shape := ⟨2, ![64, 128]⟩
/-- The second layer's weights, 128 → 64. -/
abbrev SW2 : Shape := ⟨2, ![128, 64]⟩

/-- The hidden row of node r:  h_k = max((Σ_j X(r,j)·W1(j,k)) + B_k, 0). -/
def hidden (X : SN.Idx → EReal) (W1 : SW1.Idx → EReal) (B : Fin 128 → EReal) (r : Fin 100000) (k : Fin 128) : EReal :=
  max ((∑ j : Fin 64, X (ix2 r j) * W1 (ix2 j k)) + B k) 0

/-- The projected node table:  H(r,c) = Σ_k h_k(r) · W2(k,c). -/
def proj (X : SN.Idx → EReal) (W1 : SW1.Idx → EReal) (B : Fin 128 → EReal) (W2 : SW2.Idx → EReal) : SN.Idx → EReal :=
  fun i => ∑ k : Fin 128, hidden X W1 B (i 0) k * W2 (ix2 k (i 1))

/-- A row-number word the NumPy way: a negative one has the table's 100000 rows added. -/
def wrap (w : BitVec 32) : BitVec 32 := Scalar.select (IntOp.cmpi .slt w 0#32) (IntOp.addi w 100000#32) w

/-- The table row a source word reads: wrapped, read signed, clamped into the table. -/
def row (w : BitVec 32) : Fin 100000 := ⟨min (wrap w).toInt.toNat 99999, by omega⟩

/-- The layer's result: row g gathers, over the edges n whose destination word reads g, the projected row of the
    edge's source scaled by the edge's weight, plus the bias. -/
def out (H : SN.Idx → EReal) (src dst : Fin 1700000 → BitVec 32) (norm : Fin 1700000 → EReal) (b2 : Fin 64 → EReal) :
    SN.Idx → EReal :=
  fun i => (∑ n : Fin 1700000, if (dst n).toInt = ((i 0).val : ℤ) then H (ix2 (row (src n)) (i 1)) * norm n else 0)
    + b2 (i 1)

/-- A sum over 1,703,936 terms whose last 3,936 vanish is the sum over the first 1,700,000. -/
theorem sum_pad {M : Type*} [AddCommMonoid M] (f : Fin 1703936 → M) (g : Fin 1700000 → M)
    (hlo : ∀ n : Fin 1700000, f ⟨n.val, by have := n.isLt; omega⟩ = g n)
    (hhi : ∀ n : Fin 1703936, 1700000 ≤ n.val → f n = 0) :
    ∑ n, f n = ∑ n, g n := by
  have e : ∑ n : Fin 1703936, f n = ∑ n : Fin (1700000 + 3936), f n := rfl
  rw [e, Fin.sum_univ_add]
  have h2 : ∑ j : Fin 3936, f (Fin.natAdd 1700000 j) = 0 :=
    Finset.sum_eq_zero fun j _ => hhi _ (by simp [Fin.natAdd])
  rw [h2, add_zero]
  exact Finset.sum_congr rfl fun n _ => hlo n

end Cert.GcnSpec

end
-- ==== Proof.LibScatterRows.lean ====
/-
  Host scatter-add read at an element, for the two segment sums of an `[N, D]` array and of an `[N]` array by
  an id column of shape `[N, 1]` into `G` segments.

  At the ideal instance a host scatter-add is, at each operand element, the operand's value plus the sum of the
  update elements whose result index is that element. For the row scatter (update window axis 1, inserted window
  axis 0, the one scatter index component going to operand axis 0, the index vector on axis 1 of the id column)
  update element `(n, j')` lands on operand element `(g, j)` exactly when row `n`'s id, read signed, is `g` and
  `j' = j`; so element `(g, j)` of the result is the operand's plus the sum over the rows `n` with id `g` of
  `upd (n, j)`. The vector scatter (no window axis) is the same without the column. An id outside `[0, G)` lands
  nowhere: its update is dropped.

  Last, two small facts a block-wise one-hot accumulation meets: the 32-bit word equality `w = g` against a small
  natural `g` is the signed reading `w.toInt = g`; and a double sum over `a` blocks of `b` rows is the single sum
  over the `a * b` rows, row `n` in block `n / b` at position `n % b`.
-/
import Idealize.ShloMosaic.PureOps.Ideal
import Idealize.ShloMosaic.Lib.ValueIdx
import Mathlib.Logic.Equiv.Fin.Basic

noncomputable section

open scoped BigOperators

namespace Cert.LibScatterRows

open Idealize.ShloMosaic Idealize.ShloMosaic.ValueIdx

/-! ## The result index, for any scatter -/

/-- A scatter's result index for update index `jj` is `i` exactly when, on every operand axis, the
    start (read signed) plus the window coordinate is `i`'s coordinate: the range test of
    `ScatterDims.resultIdx?` is then met by `i`'s own bounds, and an update that fails it lands nowhere. -/
theorem resultIdx?_eq_some_iff {s si u : Shape} (d : ScatterDims s si u) {w : Nat} (jj : u.Idx) (idx : IVec si w)
    (i : s.Idx) :
    d.resultIdx? jj idx = some i ↔ ∀ a, d.start jj idx a + ((d.window jj a : ℕ) : ℤ) = (((i a).val : ℕ) : ℤ) := by
  unfold ScatterDims.resultIdx?
  split_ifs with h
  · constructor
    · intro hf a
      have e := congrArg Fin.val (congrFun (Option.some.inj hf) a)
      have e' : (d.start jj idx a + ((d.window jj a : ℕ) : ℤ)).toNat = (i a).val := e
      have := (h a).1
      omega
    · intro hall
      congr 1
      funext a
      apply Fin.ext
      show (d.start jj idx a + ((d.window jj a : ℕ) : ℤ)).toNat = (i a).val
      have := hall a
      omega
  · constructor
    · intro hf; cases hf
    · intro hall
      exfalso
      apply h
      intro a
      have := hall a
      have := (i a).isLt
      constructor <;> omega

/-! ## A rank-1 index set is its one coordinate range -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row scatter: `[N, D]` updates into `[G, D]` by an `[N, 1]` id column -/

section Rows
variable {G D N : Nat}

/-- The operand shape `[G, D]`. -/
abbrev sR (G D : Nat) : Shape := ⟨2, ![G, D]⟩
/-- The id column's shape `[N, 1]`. -/
abbrev siR (N : Nat) : Shape := ⟨2, ![N, 1]⟩
/-- The updates' shape `[N, D]`. -/
abbrev uR (N D : Nat) : Shape := ⟨2, ![N, D]⟩

/-- The start index of update element `(n', j')` is read at `(n', 0)` of the id column, whatever the component. -/
theorem siIdx_rows (wf : ScatterDims.WF (sR G D) (siR N) (uR N D) [1] [0] [0] 1)
    (n' : Fin N) (j' : Fin D) (c) :
    (⟨[1], [0], [0], 1, wf⟩ : ScatterDims (sR G D) (siR N) (uR N D)).siIdx (ix2 n' j') c = ix2 n' 0 := by
  funext b
  match b with
  | ⟨0, _⟩ => rfl
  | ⟨1, _⟩ =>
    apply Fin.ext
    simp [ScatterDims.siIdx]

/-- On operand axis 0 the window starts at row `n'`'s id, read signed. -/
theorem start_rows0 {w : Nat} (wf : ScatterDims.WF (sR G D) (siR N) (uR N D) [1] [0] [0] 1)
    (idx : IVec (siR N) w) (n' : Fin N) (j' : Fin D) :
    (⟨[1], [0], [0], 1, wf⟩ : ScatterDims (sR G D) (siR N) (uR N D)).start (ix2 n' j') idx 0
      = (idx (ix2 n' 0)).toInt := by
  unfold ScatterDims.start
  rw [dif_pos (by simp)]
  rw [siIdx_rows]

/-- On operand axis 1, which the index map does not name, the window starts at 0. -/
theorem start_rows1 {w : Nat} (wf : ScatterDims.WF (sR G D) (siR N) (uR N D) [1] [0] [0] 1)
    (idx : IVec (siR N) w) (n' : Fin N) (j' : Fin D) :
    (⟨[1], [0], [0], 1, wf⟩ : ScatterDims (sR G D) (siR N) (uR N D)).start (ix2 n' j') idx 1 = 0 := by
  unfold ScatterDims.start
  rw [dif_neg (by simp)]

/-- Operand axis 0 is an inserted window axis: its window coordinate is 0. -/
theorem window_rows0 (wf : ScatterDims.WF (sR G D) (siR N) (uR N D) [1] [0] [0] 1)
    (n' : Fin N) (j' : Fin D) :
    (⟨[1], [0], [0], 1, wf⟩ : ScatterDims (sR G D) (siR N) (uR N D)).window (ix2 n' j') 0 = 0 := by
  unfold ScatterDims.window
  rw [dif_neg (by show (0 : Fin 2) ∉ ([1] : List (Fin 2)); decide)]

/-- Operand axis 1 takes the update's window axis 1: its window coordinate is the update's column. -/
theorem window_rows1 (wf : ScatterDims.WF (sR G D) (siR N) (uR N D) [1] [0] [0] 1)
    (n' : Fin N) (j' : Fin D) :
    (⟨[1], [0], [0], 1, wf⟩ : ScatterDims (sR G D) (siR N) (uR N D)).window (ix2 n' j') 1 = j'.val := by
  unfold ScatterDims.window
  rw [dif_pos (by show (1 : Fin 2) ∈ ([1] : List (Fin 2)); decide)]
  rfl

/-- The row scatter's result index, at dimension numbers given by their literals: update row `n'`, column `j'`
    lands on operand row `g`, column `j` exactly when row `n'`'s id, read signed, is `g` and the columns agree. -/
theorem resultIdx?_rows_lit {w : Nat} (wf : ScatterDims.WF (sR G D) (siR N) (uR N D) [1] [0] [0] 1)
    (idx : IVec (siR N) w) (n' : Fin N) (j' : Fin D) (g : Fin G) (j : Fin D) :
    (⟨[1], [0], [0], 1, wf⟩ : ScatterDims (sR G D) (siR N) (uR N D)).resultIdx? (ix2 n' j') idx = some (ix2 g j)
      ↔ (idx (ix2 n' 0)).toInt = (g.val : ℤ) ∧ j' = j := by
  have s0 := start_rows0 wf idx n' j'
  have s1 := start_rows1 wf idx n' j'
  have w0 := window_rows0 wf n' j'
  have w1 := window_rows1 wf n' j'
  rw [resultIdx?_eq_some_iff]
  constructor
  · intro h
    have h0 := h 0
    have h1 := h 1
    rw [s0, w0] at h0
    rw [s1, w1] at h1
    have h0' : (idx (ix2 n' 0)).toInt + ((0 : ℕ) : ℤ) = ((g.val : ℕ) : ℤ) := h0
    have h1' : (0 : ℤ) + ((j'.val : ℕ) : ℤ) = ((j.val : ℕ) : ℤ) := h1
    exact ⟨by omega, Fin.ext (by omega)⟩
  · rintro ⟨hg, rfl⟩
    refine Fin.forall_fin_two.2 ⟨?_, ?_⟩
    · rw [s0, w0]
      show (idx (ix2 n' 0)).toInt + ((0 : ℕ) : ℤ) = ((g.val : ℕ) : ℤ)
      omega
    · rw [s1, w1]
      show (0 : ℤ) + ((j'.val : ℕ) : ℤ) = ((j'.val : ℕ) : ℤ)
      omega

/-- The row scatter's result index, for any record with these dimension numbers (each hypothesis is `rfl` for a
    record defined by the four literals): update row `n'`, column `j'` lands on operand row `g`, column `j` exactly
    when row `n'`'s id, read signed and not clamped, is `g` and the columns agree. -/
theorem resultIdx?_rows {w : Nat} (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (idx : IVec (⟨2, ![N, 1]⟩ : Shape) w) (n' : Fin N) (j' : Fin D) (g : Fin G) (j : Fin D) :
    d.resultIdx? (ix2 n' j') idx = some (ix2 g j) ↔ (idx (ix2 n' 0)).toInt = (g.val : ℤ) ∧ j' = j := by
  obtain ⟨uw, iw, sd, iv, wf⟩ := d
  dsimp only at h1 h2 h3 h4
  subst h1 h2 h3 h4
  exact resultIdx?_rows_lit wf idx n' j' g j

/-- The row segment sum: element `(g, j)` of the scatter-add is the operand's plus the sum, over the rows whose id
    (read signed) is `g`, of the update's element in column `j`. A row whose id is outside `[0, G)` is dropped. -/
theorem hostScatterAdd_rows {w : Nat} (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (x : (⟨2, ![G, D]⟩ : Shape).Idx → EReal) (idx : IVec (⟨2, ![N, 1]⟩ : Shape) w)
    (upd : (⟨2, ![N, D]⟩ : Shape).Idx → EReal) (g : Fin G) (j : Fin D) :
    Ideal.hostScatterAdd d x idx upd (ix2 g j)
      = x (ix2 g j) + ∑ n : Fin N, if (idx (ix2 n 0)).toInt = (g.val : ℤ) then upd (ix2 n j) else 0 := by
  unfold Ideal.hostScatterAdd
  congr 1
  rw [Finset.sum_filter, sum_idx2]
  refine Finset.sum_congr rfl fun n _ => ?_
  have hcond : ∀ j' : Fin D,
      (if d.resultIdx? (ix2 n j') idx = some (ix2 g j) then upd (ix2 n j') else 0)
        = if (idx (ix2 n 0)).toInt = (g.val : ℤ) ∧ j' = j then upd (ix2 n j') else 0 :=
    fun j' => if_congr (resultIdx?_rows d h1 h2 h3 h4 idx n j' g j) rfl rfl
  rw [Finset.sum_congr rfl fun j' _ => hcond j']
  by_cases hc : (idx (ix2 n 0)).toInt = (g.val : ℤ)
  · rw [if_pos hc]
    have hin : ∀ j' : Fin D,
        (if (idx (ix2 n 0)).toInt = (g.val : ℤ) ∧ j' = j then upd (ix2 n j') else 0)
          = if j' = j then upd (ix2 n j') else 0 :=
      fun j' => if_congr (and_iff_right hc) rfl rfl
    rw [Finset.sum_congr rfl fun j' _ => hin j', Finset.sum_ite_eq', if_pos (Finset.mem_univ j)]
  · rw [if_neg hc]
    have hout : ∀ j' : Fin D,
        (if (idx (ix2 n 0)).toInt = (g.val : ℤ) ∧ j' = j then upd (ix2 n j') else 0) = 0 :=
      fun j' => if_neg fun h => hc h.1
    rw [Finset.sum_congr rfl fun j' _ => hout j', Finset.sum_const_zero]

end Rows

/-! ## The vector scatter: `[N]` updates into `[G]` by an `[N, 1]` id column -/

section Vec
variable {G N : Nat}

/-- The operand shape `[G]`. -/
abbrev sV (G : Nat) : Shape := ⟨1, ![G]⟩
/-- The updates' shape `[N]`. -/
abbrev uV (N : Nat) : Shape := ⟨1, ![N]⟩

/-- The start index of update element `n'` is read at `(n', 0)` of the id column, whatever the component. -/
theorem siIdx_vec (wf : ScatterDims.WF (sV G) (siR N) (uV N) [] [0] [0] 1) (n' : Fin N) (c) :
    (⟨[], [0], [0], 1, wf⟩ : ScatterDims (sV G) (siR N) (uV N)).siIdx (ix1 n') c = ix2 n' 0 := by
  funext b
  match b with
  | ⟨0, _⟩ => rfl
  | ⟨1, _⟩ =>
    apply Fin.ext
    simp [ScatterDims.siIdx]

/-- On the operand's one axis the window starts at element `n'`'s id, read signed. -/
theorem start_vec {w : Nat} (wf : ScatterDims.WF (sV G) (siR N) (uV N) [] [0] [0] 1)
    (idx : IVec (siR N) w) (n' : Fin N) :
    (⟨[], [0], [0], 1, wf⟩ : ScatterDims (sV G) (siR N) (uV N)).start (ix1 n') idx 0 = (idx (ix2 n' 0)).toInt := by
  unfold ScatterDims.start
  rw [dif_pos (by simp)]
  rw [siIdx_vec]

/-- The operand's one axis is an inserted window axis: its window coordinate is 0. -/
theorem window_vec (wf : ScatterDims.WF (sV G) (siR N) (uV N) [] [0] [0] 1) (n' : Fin N) :
    (⟨[], [0], [0], 1, wf⟩ : ScatterDims (sV G) (siR N) (uV N)).window (ix1 n') 0 = 0 := by
  unfold ScatterDims.window
  rw [dif_neg (by show (0 : Fin 1) ∉ ([] : List (Fin 1)); decide)]

/-- The vector scatter's result index, at dimension numbers given by their literals: update element `n'` lands on
    operand element `g` exactly when its id, read signed, is `g`. -/
theorem resultIdx?_vec_lit {w : Nat} (wf : ScatterDims.WF (sV G) (siR N) (uV N) [] [0] [0] 1)
    (idx : IVec (siR N) w) (n' : Fin N) (g : Fin G) :
    (⟨[], [0], [0], 1, wf⟩ : ScatterDims (sV G) (siR N) (uV N)).resultIdx? (ix1 n') idx = some (ix1 g)
      ↔ (idx (ix2 n' 0)).toInt = (g.val : ℤ) := by
  have s0 := start_vec wf idx n'
  have w0 := window_vec wf n'
  rw [resultIdx?_eq_some_iff]
  constructor
  · intro h
    have h0 := h 0
    rw [s0, w0] at h0
    have h0' : (idx (ix2 n' 0)).toInt + ((0 : ℕ) : ℤ) = ((g.val : ℕ) : ℤ) := h0
    omega
  · intro hg a
    have ha : a = 0 := Subsingleton.elim _ _
    subst ha
    rw [s0, w0]
    show (idx (ix2 n' 0)).toInt + ((0 : ℕ) : ℤ) = ((g.val : ℕ) : ℤ)
    omega

/-- The vector scatter's result index, for any record with these dimension numbers (each hypothesis is `rfl` for a
    record defined by the four literals): update element `n'` lands on operand element `g` exactly when its id,
    read signed and not clamped, is `g`. -/
theorem resultIdx?_vec {w : Nat} (d : ScatterDims (⟨1, ![G]⟩ : Shape) (⟨2, ![N, 1]⟩ : Shape) (⟨1, ![N]⟩ : Shape))
    (h1 : d.updateWindowDims = []) (h2 : d.insertedWindowDims = [0]) (h3 : d.scatterDimsToOperandDims = [0])
    (h4 : d.indexVectorDim = 1) (idx : IVec (⟨2, ![N, 1]⟩ : Shape) w) (n' : Fin N) (g : Fin G) :
    d.resultIdx? (ix1 n') idx = some (ix1 g) ↔ (idx (ix2 n' 0)).toInt = (g.val : ℤ) := by
  obtain ⟨uw, iw, sd, iv, wf⟩ := d
  dsimp only at h1 h2 h3 h4
  subst h1 h2 h3 h4
  exact resultIdx?_vec_lit wf idx n' g

/-- The vector segment sum: element `g` of the scatter-add is the operand's plus the sum, over the elements whose
    id (read signed) is `g`, of the update's element. An element whose id is outside `[0, G)` is dropped. -/
theorem hostScatterAdd_vec {w : Nat} (d : ScatterDims (⟨1, ![G]⟩ : Shape) (⟨2, ![N, 1]⟩ : Shape) (⟨1, ![N]⟩ : Shape))
    (h1 : d.updateWindowDims = []) (h2 : d.insertedWindowDims = [0]) (h3 : d.scatterDimsToOperandDims = [0])
    (h4 : d.indexVectorDim = 1) (x : (⟨1, ![G]⟩ : Shape).Idx → EReal) (idx : IVec (⟨2, ![N, 1]⟩ : Shape) w)
    (upd : (⟨1, ![N]⟩ : Shape).Idx → EReal) (g : Fin G) :
    Ideal.hostScatterAdd d x idx upd (ix1 g)
      = x (ix1 g) + ∑ n : Fin N, if (idx (ix2 n 0)).toInt = (g.val : ℤ) then upd (ix1 n) else 0 := by
  unfold Ideal.hostScatterAdd
  congr 1
  rw [Finset.sum_filter, sum_idx1]
  exact Finset.sum_congr rfl fun n _ => if_congr (resultIdx?_vec d h1 h2 h3 h4 idx n g) rfl rfl

end Vec

/-! ## The one-hot word compare, and sums taken block by block -/

/-- A natural below `2 ^ 31`, as a 32-bit word, reads signed as itself. -/
theorem toInt_ofNat_of_lt (g : ℕ) (hg : g < 2 ^ 31) : (BitVec.ofNat 32 g).toInt = (g : ℤ) := by
  have hn : (BitVec.ofNat 32 g).toNat = g := by
    rw [BitVec.toNat_ofNat]; exact Nat.mod_eq_of_lt (by omega)
  rw [BitVec.toInt_eq_toNat_of_lt (by rw [hn]; omega), hn]

/-- A 32-bit word equals the word of a natural below `2 ^ 31` exactly when its signed reading is that natural. -/
theorem eq_ofNat_iff_toInt (w : BitVec 32) (g : ℕ) (hg : g < 2 ^ 31) :
    w = BitVec.ofNat 32 g ↔ w.toInt = (g : ℤ) := by
  constructor
  · rintro rfl; exact toInt_ofNat_of_lt g hg
  · intro h; apply BitVec.eq_of_toInt_eq; rw [h, toInt_ofNat_of_lt g hg]

/-- The one-hot compare against a segment number below 256: the word equality is the signed reading's. -/
theorem eq_ofNat_iff_toInt_fin (w : BitVec 32) (g : Fin 256) :
    w = BitVec.ofNat 32 g.val ↔ w.toInt = (g.val : ℤ) :=
  eq_ofNat_iff_toInt w g.val (by have := g.isLt; omega)

/-- The same with the segment number cast into the words. -/
theorem eq_natCast_iff_toInt_fin (w : BitVec 32) (g : Fin 256) :
    w = ((g.val : ℕ) : BitVec 32) ↔ w.toInt = (g.val : ℤ) :=
  eq_ofNat_iff_toInt_fin w g

/-- A one-hot weighted sum is the sum over the selected terms: `0 * x = 0` and `1 * x = x` hold for every extended
    real, the infinities included. -/
theorem sum_onehot_mul {N : Nat} (w : Fin N → BitVec 32) (g : Fin 256) (h : Fin N → EReal) :
    ∑ n, (if w n = BitVec.ofNat 32 g.val then (1 : EReal) else 0) * h n
      = ∑ n, if (w n).toInt = (g.val : ℤ) then h n else 0 := by
  refine Finset.sum_congr rfl fun n _ => ?_
  by_cases hc : w n = BitVec.ofNat 32 g.val
  · rw [if_pos hc, if_pos ((eq_ofNat_iff_toInt_fin (w n) g).1 hc), one_mul]
  · rw [if_neg hc, if_neg fun h' => hc ((eq_ofNat_iff_toInt_fin (w n) g).2 h'), zero_mul]

/-- A sum taken block by block, `a` blocks of `b` terms, is the one sum over the `a * b` terms: term `n` is in
    block `n / b` at position `n % b`. -/
theorem sum_blocks {M : Type*} [AddCommMonoid M] (a b : ℕ) (f : Fin a → Fin b → M) :
    ∑ t, ∑ r, f t r = ∑ n : Fin (a * b), f n.divNat n.modNat := by
  rw [← Fintype.sum_prod_type']
  exact (Equiv.sum_comp finProdFinEquiv.symm fun p : Fin a × Fin b => f p.1 p.2).symm

/-- Twenty blocks of 5000 rows are the 100000 rows: row `n` is in block `n / 5000` at position `n % 5000`. -/
theorem sum_blocks_20_5000 {M : Type*} [AddCommMonoid M] (f : Fin 20 → Fin 5000 → M) :
    ∑ t, ∑ r, f t r
      = ∑ n : Fin 100000, f ⟨n.val / 5000, by have := n.isLt; omega⟩ ⟨n.val % 5000, by have := n.isLt; omega⟩ :=
  sum_blocks 20 5000 f

end Cert.LibScatterRows
-- ==== Proof.LibGatherRows.lean ====
/-
  Rows of a table taken at a column of start indices (the table indexed by a one-axis array of row numbers, the
  start indices as an [N, 1] array): the result's entry (n, k) is the table's entry at row  idx[n, 0]  (that word read
  as a signed integer and clamped into the table's rows) and column k. Operand axis 0 is collapsed and indexed, operand
  axis 1 is an offset axis taken whole, and the index vector lies on axis 1 of the start indices.
  When the word reads as a row number of the table the clamp does nothing, and the entry is the table's at that row.
-/
import Idealize.ShloMosaic.PureOps
import Idealize.ShloMosaic.Lib.ValueIdx

noncomputable section

open Idealize.ShloMosaic Idealize.ShloMosaic.ValueIdx

namespace Cert.GatherRows

variable {α : Type}

/-- The dimension numbers of the row gather for a [T, C] table and an [N, 1] column of start indices: axis 0 collapsed
    and indexed, axis 1 an offset axis taken whole; the result is [N, C]. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row gather read at (n, k), at dimension numbers given by their literals: the table at row  idx[n, 0]
    (signed, clamped into [0, T − 1]) and column k. -/
theorem gather_rows_lit {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (n : Fin N) (k : Fin C) :
    Host.gather (rowsDims T C N wf) x idx (ix2 n k)
      = x (ix2 ⟨min (idx (ix2 n 0)).toInt.toNat (T - 1), by omega⟩ k) := by
  unfold Host.gather
  congr 1
  funext a
  refine Fin.ext ?_
  match a with
  | ⟨0, _⟩ =>
    show (rowsDims T C N wf).start (ix2 n k) idx 0 + (rowsDims T C N wf).batchCoord (ix2 n k) 0
      + (rowsDims T C N wf).offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 n k) ⟨List.idxOf (0 : Fin 2) (rowsDims T C N wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 n k) idx 1 + (rowsDims T C N wf).batchCoord (ix2 n k) 1
      + (rowsDims T C N wf).offCoord (ix2 n k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- The row gather read at (n, k), for any record with these dimension numbers (each hypothesis is `rfl` for a record
    defined by the seven literals): the table at row  idx[n, 0]  (signed, clamped into [0, T − 1]) and column k. -/
theorem gather_rows_apply {T C N w : ℕ} (hT : 0 < T)
    (d : GatherDims (⟨2, ![T, C]⟩ : Shape) (⟨2, ![N, 1]⟩ : Shape) (⟨2, ![N, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![T, C]⟩ : Shape).Idx → α) (idx : IVec ⟨2, ![N, 1]⟩ w) (n : Fin N) (k : Fin C) :
    Host.gather d x idx (ix2 n k) = x (ix2 ⟨min (idx (ix2 n 0)).toInt.toNat (T - 1), by omega⟩ k) := by
  obtain ⟨od, cs, ob, sb, sm, iv, ss, wf⟩ := d
  dsimp only at h1 h2 h3 h4 h5 h6 h7
  subst h1 h2 h3 h4 h5 h6 h7
  exact gather_rows_lit hT wf x idx n k

/-- The same when the start index, read signed, is a row number of the table: the clamp does nothing. -/
theorem gather_rows_apply_of_lt {T C N w : ℕ}
    (d : GatherDims (⟨2, ![T, C]⟩ : Shape) (⟨2, ![N, 1]⟩ : Shape) (⟨2, ![N, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![T, C]⟩ : Shape).Idx → α) (idx : IVec ⟨2, ![N, 1]⟩ w) (n : Fin N) (k : Fin C)
    (h0 : 0 ≤ (idx (ix2 n 0)).toInt) (hlt : (idx (ix2 n 0)).toInt < (T : ℤ)) :
    Host.gather d x idx (ix2 n k) = x (ix2 ⟨(idx (ix2 n 0)).toInt.toNat, by omega⟩ k) := by
  have hT : 0 < T := by omega
  rw [gather_rows_apply hT d h1 h2 h3 h4 h5 h6 h7 x idx n k]
  congr 2
  exact Fin.ext (Nat.min_eq_left (by omega))

end Cert.GatherRows

end
-- ==== Proof.KernelPad.lean ====
/-
  The second program sums the scaled rows by a destination list lengthened with 3,936 zero words, the rows read at
  a source list and scaled by a weight list lengthened the same way. The added weights are zero, and over the
  extended reals a product with zero is zero whatever the other factor, so the added rows add nothing: the
  program's tail is the layer's result over the 1,700,000 true edges.
-/
import proofs.«108850_j59399397704019_1_alg».proof.Proof.KernelTerm
import proofs.«108850_j59399397704019_1_alg».proof.Proof.Spec
import proofs.«108850_j59399397704019_1_alg».proof.Proof.LibScatterRows
import proofs.«108850_j59399397704019_1_alg».proof.Proof.LibGatherRows
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pad

open Idealize.ShloMosaic Idealize.ShloMosaic.ValueIdx
open Cert.KernelIdeal Cert.KernelIdeal.Facts₀

/-! ## A vector lengthened by 3,936 entries, read at a position -/

/-- Below 1,700,000 the lengthened vector reads the vector itself. -/
private theorem concat_lo {α : Type} (x₁ : S1700000.Idx → α) (x₂ : S3936.Idx → α) (n : Fin 1700000) :
    concatenate S1703936 0 [⟨S1700000, x₁⟩, ⟨S3936, x₂⟩] concatenates_S1700000_S3936_S1703936_d0
        (ix1 (⟨n.val, by have := n.isLt; omega⟩ : Fin 1703936)) = x₁ (ix1 n) :=
  concatenate_pair_apply_left 0 x₁ x₂ concatenates_S1700000_S3936_S1703936_d0
    (ix1 (⟨n.val, by have := n.isLt; omega⟩ : Fin 1703936)) rfl (ix1 n)
    (fun b => match b with | ⟨0, _⟩ => rfl)

/-- From 1,700,000 on it reads the added piece, 1,700,000 positions earlier. -/
private theorem concat_hi {α : Type} (x₁ : S1700000.Idx → α) (x₂ : S3936.Idx → α) (n : Fin 1703936)
    (h : 1700000 ≤ n.val) :
    concatenate S1703936 0 [⟨S1700000, x₁⟩, ⟨S3936, x₂⟩] concatenates_S1700000_S3936_S1703936_d0 (ix1 n)
      = x₂ (ix1 (⟨n.val - 1700000, by have := n.isLt; omega⟩ : Fin 3936)) :=
  concatenate_pair_apply_right 0 x₁ x₂ concatenates_S1700000_S3936_S1703936_d0 (ix1 n) rfl rfl
    (ix1 (⟨n.val - 1700000, by have := n.isLt; omega⟩ : Fin 3936))
    (fun b => match b with | ⟨0, _⟩ => fun hb => absurd rfl hb)
    (by show n.val - 1700000 + 1700000 = n.val; omega)

/-! ## The lengthened lists and the index columns, read at a position -/

/-- A zero laid out over any shape reads zero everywhere. -/
private theorem zero_fill_apply {s : Shape} (h : S_.BroadcastsInDim s (![] : Fin 0 → Fin s.rank)) (i : s.Idx) :
    broadcastInDim s ![] h (constant (F := Ideal) S_ .f32 0x00000000#32) i = 0 := by
  rw [broadcastInDim_apply ![] h _ i ix0 (fun a => a.elim0), constant_apply, Ideal.ofBits_zero_f32]

variable (ei : IVec S2x1600000 32)

/-- Below 1,700,000 the lengthened destination list is the destination list. -/
private theorem dstP_lo (n : Fin 1700000) :
    Term.dstP ei (ix1 (⟨n.val, by have := n.isLt; omega⟩ : Fin 1703936)) = Term.dstT ei (ix1 n) :=
  concat_lo _ _ n

/-- Below 1,700,000 the lengthened source list is the source list. -/
private theorem srcP_lo (n : Fin 1700000) :
    Term.srcP ei (ix1 (⟨n.val, by have := n.isLt; omega⟩ : Fin 1703936)) = Term.srcT ei (ix1 n) :=
  concat_lo _ _ n

/-- Below 1,700,000 the lengthened weights are the weights. -/
private theorem normP_lo (n : Fin 1700000) :
    Term.normP ei (ix1 (⟨n.val, by have := n.isLt; omega⟩ : Fin 1703936)) = Term.normT ei (ix1 n) :=
  concat_lo _ _ n

/-- From 1,700,000 on the lengthened weights are zero. -/
private theorem normP_hi (n : Fin 1703936) (h : 1700000 ≤ n.val) : Term.normP ei (ix1 n) = 0 := by
  unfold Term.normP
  rw [concat_hi (Term.normT ei) _ n h, zero_fill_apply]

/-- The weight column at row n is the lengthened weight n. -/
private theorem normCol_apply (n : Fin 1703936) : Term.normCol ei (ix2 n 0) = Term.normP ei (ix1 n) :=
  shapeCast_apply (Term.normP ei) shapeCasts_S1703936_S1703936x1 (ix2 n 0) (ix1 n)
    (by rw [Shape.rowMajor_val_one, Shape.rowMajor_val_two]; show n.val = n.val * 1 + 0; omega)

/-- A list laid out as a column reads, at row n, its entry n. -/
private theorem col_apply {α : Type} (x : S1703936.Idx → α) (n : Fin 1703936) :
    broadcastInDim S1703936x1 ![0] bcast_S1703936_S1703936x1_0 x (ix2 n 0) = x (ix1 n) :=
  broadcastInDim_apply ![0] bcast_S1703936_S1703936x1_0 x (ix2 n 0) (ix1 n)
    (fun a => match a with | ⟨0, _⟩ => (if_neg (show ¬((1703936 : ℕ) = 1) by norm_num)).symm)

/-- The column of start indices at row n is the lengthened source word n, wrapped. -/
private theorem srcIdx_apply (n : Fin 1703936) : Term.srcIdx ei (ix2 n 0) = GcnSpec.wrap (Term.srcP ei (ix1 n)) :=
  col_apply _ n

/-- The gathered row n is the table's row the lengthened source word n reads. -/
private theorem gathered_apply (H : FVec Ideal S100000x64 .f32) (n : Fin 1703936) (k : Fin 64) :
    Term.gathered H ei (ix2 n k) = H (ix2 (GcnSpec.row (Term.srcP ei (ix1 n))) k) := by
  refine (Cert.GatherRows.gather_rows_apply (T := 100000) (C := 64) (N := 1703936) (w := 32) (by norm_num)
    gather_S100000x64_S1703936x1_S1703936x64_1_0_n_n_0_1_164 rfl rfl rfl rfl rfl rfl rfl H (Term.srcIdx ei) n k).trans ?_
  refine congrArg (fun r : Fin 100000 => H (ix2 r k)) (Fin.ext ?_)
  show min (Term.srcIdx ei (ix2 n 0)).toInt.toNat (100000 - 1) = min (GcnSpec.wrap (Term.srcP ei (ix1 n))).toInt.toNat 99999
  rw [srcIdx_apply]

/-- The bias laid out over the table's rows reads, at (g, j), its entry j. -/
private theorem bias_apply (b2 : FVec Ideal S64 .f32) (g : Fin 100000) (j : Fin 64) :
    broadcastInDim S100000x64 ![0, 1] bcast_S1x64_S100000x64_0_1 (broadcastInDim S1x64 ![1] bcast_S64_S1x64_1 b2) (ix2 g j)
      = b2 (ix1 j) :=
  (broadcastInDim_apply ![0, 1] bcast_S1x64_S100000x64_0_1 _ (ix2 g j) (ix2 (0 : Fin 1) j)
      (fun a => match a with
        | ⟨0, _⟩ => (if_pos rfl).symm
        | ⟨1, _⟩ => (if_neg (show ¬((64 : ℕ) = 1) by norm_num)).symm)).trans
    (broadcastInDim_apply ![1] bcast_S64_S1x64_1 b2 (ix2 (0 : Fin 1) j) (ix1 j)
      (fun a => match a with | ⟨0, _⟩ => (if_neg (show ¬((64 : ℕ) = 1) by norm_num)).symm))

/-! ## The segment sum read at an entry, for tables of any extents -/

/-- A row segment sum at (g, j): the operand's entry plus the sum of column j over the rows whose id reads g. -/
private theorem scatterAdd_rows_apply {G D N w : ℕ}
    (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (x : FVec Ideal (⟨2, ![G, D]⟩ : Shape) .f32) (idx : IVec (⟨2, ![N, 1]⟩ : Shape) w)
    (upd : FVec Ideal (⟨2, ![N, D]⟩ : Shape) .f32) (g : Fin G) (j : Fin D) :
    Host.scatterAdd d x idx upd (ix2 g j)
      = x (ix2 g j) + ∑ n : Fin N, if (idx (ix2 n 0)).toInt = (g.val : ℤ) then upd (ix2 n j) else 0 :=
  (congrFun (Ideal.hostScatterAdd_def d .single x idx upd) (ix2 g j)).trans
    (Cert.LibScatterRows.hostScatterAdd_rows d h1 h2 h3 h4 x idx upd g j)

/-- A sum over all rows with the ids rewritten row by row, onto a zero entry. -/
private theorem zero_add_sum_congr {N : ℕ} (z : EReal) (hz : z = 0) (f f' : Fin N → EReal) (hf : ∀ n, f n = f' n) :
    z + ∑ n, f n = ∑ n, f' n := by
  rw [hz, zero_add]
  exact Finset.sum_congr rfl fun n _ => hf n

/-- The segment sum of rows `M` by the lengthened destination list into a zero table, at (g, j): the sum of
    column j over the rows whose destination word reads g. -/
private theorem scatter_apply (M : FVec Ideal S1703936x64 .f32) (g : Fin 100000) (j : Fin 64) :
    Host.scatterAdd scatter_S100000x64_S1703936x1_S1703936x64_1_0_0_1
        (broadcastInDim S100000x64 ![] bcast_S_S100000x64 (constant (F := Ideal) S_ .f32 0x00000000#32))
        (broadcastInDim S1703936x1 ![0] bcast_S1703936_S1703936x1_0 (Term.dstP ei)) M (ix2 g j)
      = ∑ n : Fin 1703936, if (Term.dstP ei (ix1 n)).toInt = (g.val : ℤ) then M (ix2 n j) else 0 := by
  have h := scatterAdd_rows_apply (G := 100000) (D := 64) (N := 1703936) (w := 32)
      scatter_S100000x64_S1703936x1_S1703936x64_1_0_0_1 rfl rfl rfl rfl
      (broadcastInDim S100000x64 ![] bcast_S_S100000x64 (constant (F := Ideal) S_ .f32 0x00000000#32))
      (broadcastInDim S1703936x1 ![0] bcast_S1703936_S1703936x1_0 (Term.dstP ei)) M g j
  refine h.trans ?_
  refine zero_add_sum_congr _ (zero_fill_apply bcast_S_S100000x64 (ix2 g j)) _ _ (fun n => ?_)
  rw [col_apply]

/-! ## The two sides at an entry, and the padding -/

/-- The program's tail at (g, j): the segment sum of column j by the lengthened destination list, plus the bias. -/
private theorem tail_apply (M : FVec Ideal S1703936x64 .f32) (b2 : FVec Ideal S64 .f32) (g : Fin 100000) (j : Fin 64) :
    Term.tail M ei b2 (ix2 g j)
      = (∑ n : Fin 1703936, if (Term.dstP ei (ix1 n)).toInt = (g.val : ℤ) then M (ix2 n j) else 0) + b2 (ix1 j) := by
  have hs := scatter_apply ei M g j
  have hb := bias_apply b2 g j
  rw [Term.tail, addf_apply, hs, hb]

/-- The layer's result at (g, j), its sum and its bias entry named. -/
private theorem out_apply (H : GcnSpec.SN.Idx → EReal) (src dst : Fin 1700000 → BitVec 32) (norm : Fin 1700000 → EReal)
    (b : Fin 64 → EReal) (g : Fin 100000) (j : Fin 64) :
    GcnSpec.out H src dst norm b (ix2 g j)
      = (∑ n : Fin 1700000, if (dst n).toInt = (g.val : ℤ) then H (ix2 (GcnSpec.row (src n)) j) * norm n else 0) + b j :=
  rfl

/-- The sum over the lengthened lists is the sum over the true edges: a true edge's three lengthened entries are the
    lists' own, and an added edge has weight zero, so its row is zero whatever it reads. -/
private theorem pad_sum (H : FVec Ideal S100000x64 .f32) (M : FVec Ideal S1703936x64 .f32)
    (hM : ∀ (n : Fin 1703936) (k : Fin 64), M (ix2 n k) = Term.gathered H ei (ix2 n k) * Term.normCol ei (ix2 n 0))
    (g : Fin 100000) (j : Fin 64) :
    (∑ n : Fin 1703936, if (Term.dstP ei (ix1 n)).toInt = (g.val : ℤ) then M (ix2 n j) else 0)
      = ∑ n : Fin 1700000, if (Term.dstT ei (ix1 n)).toInt = (g.val : ℤ)
          then H (ix2 (GcnSpec.row (Term.srcT ei (ix1 n))) j) * Term.normT ei (ix1 n) else 0 := by
  have hlo : ∀ n : Fin 1700000,
      (if (Term.dstP ei (ix1 (⟨n.val, by have := n.isLt; omega⟩ : Fin 1703936))).toInt = (g.val : ℤ)
          then M (ix2 (⟨n.val, by have := n.isLt; omega⟩ : Fin 1703936) j) else 0)
        = if (Term.dstT ei (ix1 n)).toInt = (g.val : ℤ)
            then H (ix2 (GcnSpec.row (Term.srcT ei (ix1 n))) j) * Term.normT ei (ix1 n) else 0 := by
    intro n
    rw [dstP_lo, hM, gathered_apply, normCol_apply, srcP_lo, normP_lo]
  have hhi : ∀ n : Fin 1703936, 1700000 ≤ n.val →
      (if (Term.dstP ei (ix1 n)).toInt = (g.val : ℤ) then M (ix2 n j) else 0) = 0 := by
    intro n hn
    rw [hM, normCol_apply, normP_hi ei n hn, mul_zero, ite_self]
  exact GcnSpec.sum_pad
    (fun n : Fin 1703936 => if (Term.dstP ei (ix1 n)).toInt = (g.val : ℤ) then M (ix2 n j) else 0)
    (fun n : Fin 1700000 => if (Term.dstT ei (ix1 n)).toInt = (g.val : ℤ)
      then H (ix2 (GcnSpec.row (Term.srcT ei (ix1 n))) j) * Term.normT ei (ix1 n) else 0)
    hlo hhi

/-- The program's tail over rows `M` that are the gathered rows of a table `H` scaled by the lengthened weights is the
    layer's result over the 1,700,000 true edges: the 3,936 added edges have weight zero. -/
theorem tail_eq_out (H : FVec Ideal S100000x64 .f32) (M : FVec Ideal S1703936x64 .f32) (ei : IVec S2x1600000 32)
    (b2 : FVec Ideal S64 .f32)
    (hM : ∀ (n : Fin 1703936) (k : Fin 64), M (ix2 n k) = Term.gathered H ei (ix2 n k) * Term.normCol ei (ix2 n 0)) :
    Term.tail M ei b2
      = GcnSpec.out H (fun n => Term.srcT ei (ix1 n)) (fun n => Term.dstT ei (ix1 n)) (fun n => Term.normT ei (ix1 n))
          (fun j => b2 (ix1 j)) := by
  funext i
  obtain ⟨g, j, rfl⟩ : ∃ g j, i = ix2 g j := ⟨i 0, i 1, eq_ix2 i⟩
  have hL := tail_apply ei M b2 g j
  have hS := pad_sum ei H M hM g j
  have hR := out_apply H (fun n => Term.srcT ei (ix1 n)) (fun n => Term.dstT ei (ix1 n))
    (fun n => Term.normT ei (ix1 n)) (fun j => b2 (ix1 j)) g j
  rw [hL, hS, hR]

end Cert.KernelIdeal.Pad

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.ProjValue.lean ====
import proofs.«108850_j59399397704019_1_alg».proof.Proof.Gen.KernelIdeal.Frame
import proofs.«108850_j59399397704019_1_alg».proof.Proof.Spec
import proofs.«108850_j59399397704019_1_alg».proof.Proof.LibDense
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.ProjValue

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## One block: the two dense layers at an entry -/

/-- The [1, 128] bias row, stretched over the block's 2000 rows, reads at (p, k) the row's entry k. -/
theorem bias_row_apply (b : FVec Ideal S1x128 .f32) (p : Fin 2000) (k : Fin 128) :
    broadcastTo S2000x128 (shapeCast S1x128 b shapeCasts_S1x128_S1x128) broadcasts_S1x128_S2000x128 (ix2 p k)
      = b (ix2 0 k) := by
  -- the cast to the row's own shape changes nothing; the stretch reads row 0 and keeps the column
  rw [shapeCast_self]
  refine broadcastTo_apply b broadcasts_S1x128_S2000x128 (ix2 p k) (ix2 (0 : Fin 1) k) fun a => ?_
  match a with
  | ⟨0, _⟩ => exact (if_pos rfl).symm
  | ⟨1, _⟩ =>
    show k.val = if (128 : ℕ) = 1 then 0 else k.val
    exact (if_neg (by decide)).symm

/-- What the body stores for a block, at the block's entry (p, q): the hidden row of the block's row p — its 64
    features through the first layer, the bias added, the rectifier — through the second layer's column q. -/
theorem block_apply (x : Vec Ideal S2000x64 .f32) (w1 : Vec Ideal S64x128 .f32) (b : Vec Ideal S1x128 .f32)
    (w2 : Vec Ideal S128x64 .f32) (p : Fin 2000) (q : Fin 64) :
    k0_pay1 (F := Ideal) x w1 b w2 (ix2 p q)
      = ∑ k : Fin 128, max ((∑ j : Fin 64, (x (ix2 p j) : EReal) * w1 (ix2 j k)) + b (ix2 0 k)) 0 * w2 (ix2 k q) := by
  unfold k0_pay1
  -- the second product into zeros is the sum over the 128 hidden entries
  refine (Cert.Dense.matmul_zero_plain_apply dot_S2000x128_S128x64_S2000x64_1_0_0_1_n_n rfl rfl rfl rfl rfl rfl
    none _ _ p q).trans ?_
  refine Finset.sum_congr rfl fun k _ => ?_
  refine congrArg₂ (· * ·) ?_ rfl
  -- narrowing is the identity on the extended reals; the maximum with the zero splat is the rectifier
  refine (Cert.Dense.kernel_relu_apply _ (ix2 p k)).trans ?_
  refine congrArg (fun y : EReal => max y 0) ?_
  -- the sum of the first product and the stretched bias row
  refine (addf_apply _ _ (ix2 p k)).trans ?_
  refine congrArg₂ (· + ·) ?_ (bias_row_apply b p k)
  exact Cert.Dense.matmul_zero_plain_apply dot_S2000x64_S64x128_S2000x128_1_0_0_1_n_n rfl rfl rfl rfl rfl rfl
    none _ _ p k

/-! ## From the blocks to the array -/

variable (V : (c : Dev nD) → (b : Ref sig .tc) → Buf (Elt Ideal) ((c : Thread nD τ).loc b))

/-- The body's accesses all start at the zero offsets. -/
theorem zero_offsets : (![0, 0] : Fin 2 → Nat) = fun _ => 0 := funext fun a => by fin_cases a <;> rfl

/-- The printed index maps, decided over the 50 grid points: at point t the node rows' window and the output's window
    are both on block (t, 0), and the three parameter windows stay on block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The node rows' block at point t is rows 2000·t … 2000·t + 1999 of the node table. -/
theorem rows_block (c : Dev nD) (t : Fin cfg0.N) (p : Fin 2000) (j : Fin 64) (r : Fin 100000)
    (hr : r.val = t.val * 2000 + p.val) :
    (iblk0 (F := Ideal) V c 0 t : Vec Ideal S2000x64 .f32) (ix2 p j)
      = (V c main_arg0 : S100000x64.Idx → EReal) (ix2 r j) := by
  obtain ⟨e0, e1, -⟩ := index_maps t
  show (V c main_arg0 : S100000x64.Idx → EReal) (((cfg0.win 0).blk t).view.emb (ix2 p j)) = _
  refine congrArg _ (funext fun a => Fin.ext ?_)
  match a with
  | ⟨0, _⟩ => show win0_0.index t (0 : Fin 2) * 2000 + 1 * p.val = r.val; omega
  | ⟨1, _⟩ => show win0_0.index t (1 : Fin 2) * 64 + 1 * j.val = j.val; omega

/-- The first layer's weights are fetched whole at every point. -/
theorem w1_block (c : Dev nD) (t : Fin cfg0.N) :
    (iblk0 (F := Ideal) V c 1 t : Vec Ideal S64x128 .f32) = (V c main_arg2 : S64x128.Idx → EReal) := by
  obtain ⟨-, -, e0, e1, -⟩ := index_maps t
  funext y
  show (V c main_arg2 : S64x128.Idx → EReal) (((cfg0.win 1).blk t).view.emb y) = _
  refine congrArg _ (funext fun a => Fin.ext ?_)
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- So is the bias row. -/
theorem bias_block (c : Dev nD) (t : Fin cfg0.N) :
    (iblk0 (F := Ideal) V c 2 t : Vec Ideal S1x128 .f32) = (V c main_v0 : S1x128.Idx → EReal) := by
  obtain ⟨-, -, -, -, e0, e1, -⟩ := index_maps t
  funext y
  show (V c main_v0 : S1x128.Idx → EReal) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- So are the second layer's weights. -/
theorem w2_block (c : Dev nD) (t : Fin cfg0.N) :
    (iblk0 (F := Ideal) V c 3 t : Vec Ideal S128x64 .f32) = (V c main_arg4 : S128x64.Idx → EReal) := by
  obtain ⟨-, -, -, -, -, -, e0, e1, -⟩ := index_maps t
  funext y
  show (V c main_arg4 : S128x64.Idx → EReal) (((cfg0.win 3).blk t).view.emb y) = _
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- One block against the table: a block whose rows are rows 2000·n … 2000·n + 1999 of a node table X, computed with
    the table's own parameters, holds at (p, q) the projected table's entry (2000·n + p, q). -/
theorem block_rows (X : S100000x64.Idx → EReal) (W1 : S64x128.Idx → EReal) (B : S1x128.Idx → EReal)
    (W2 : S128x64.Idx → EReal) (x : Vec Ideal S2000x64 .f32) (w1 : Vec Ideal S64x128 .f32) (b : Vec Ideal S1x128 .f32)
    (w2 : Vec Ideal S128x64 .f32) (n : ℕ)
    (hx : ∀ (p : Fin 2000) (j : Fin 64) (r : Fin 100000), r.val = n * 2000 + p.val → x (ix2 p j) = X (ix2 r j))
    (hw1 : w1 = W1) (hb : b = B) (hw2 : w2 = W2)
    (p : Fin 2000) (q : Fin 64) (r : Fin 100000) (hr : r.val = n * 2000 + p.val) :
    k0_pay1 (F := Ideal) x w1 b w2 (ix2 p q) = GcnSpec.proj X W1 (fun k => B (ix2 0 k)) W2 (ix2 r q) := by
  subst hw1 hb hw2
  refine (block_apply x w1 b w2 p q).trans ?_
  -- the table's entry (r, q) is the same sum, over row r of X
  show _ = ∑ k : Fin 128, max ((∑ j : Fin 64, X (ix2 r j) * w1 (ix2 j k)) + b (ix2 0 k)) 0 * w2 (ix2 k q)
  have hrow : ∀ j : Fin 64, (x (ix2 p j) : EReal) = X (ix2 r j) := fun j => hx p j r hr
  simp only [hrow]

/-- The projected node table of the operands the region finds. -/
abbrev table (c : Dev nD) : S100000x64.Idx → EReal :=
  GcnSpec.proj (V c main_arg0) (V c main_arg2) (fun k => (V c main_v0 : S1x128.Idx → EReal) (ix2 0 k)) (V c main_arg4)

/-- What point t writes back to the output array is block t of the projected table. -/
theorem flushed_eq (c : Dev nD) (t : Fin cfg0.N) :
    (dat0 (F := Ideal) V c).flushed 4 t = ((cfg0.win 4).blk t).view.read (Elt Ideal) (table V c) := by
  show (cfg0.win 4).cut (grid0.coords t) ((dat0 (F := Ideal) V c).after 4 t) = _
  rw [after0_4]
  unfold out0_4
  rw [View.canon_unit_zero zero_offsets]
  simp only [View.ld_unit_zero (S := S2000x64) zero_offsets, View.ld_unit_zero (S := S64x128) zero_offsets,
    View.ld_unit_zero (S := S1x128) zero_offsets, View.ld_unit_zero (S := S128x64) zero_offsets]
  obtain ⟨-, -, -, -, -, -, -, -, e0, e1⟩ := index_maps t
  have ht : t.val < 50 := lt_of_lt_of_eq t.isLt N_0
  refine funext fun (y : S2000x64.Idx) => ?_
  obtain ⟨p, q, rfl⟩ : ∃ (p : Fin 2000) (q : Fin 64), y = ix2 p q := ⟨y 0, y 1, eq_ix2 y⟩
  have hp : p.val < 2000 := p.isLt
  have hr : t.val * 2000 + p.val < 100000 := by omega
  -- the output's block element (p, q) sits at row 2000·t + p, column q of the array
  have e : ((cfg0.win 4).blk t).view.emb (ix2 p q) = (ix2 (⟨t.val * 2000 + p.val, hr⟩ : Fin 100000) q : S100000x64.Idx) := by
    funext a; apply Fin.ext
    match a with
    | ⟨0, _⟩ => show win0_4.index t (0 : Fin 2) * 2000 + 1 * p.val = t.val * 2000 + p.val; omega
    | ⟨1, _⟩ => show win0_4.index t (1 : Fin 2) * 64 + 1 * q.val = q.val; omega
  show k0_pay1 (F := Ideal) (iblk0 V c 0 t) (iblk0 V c 1 t) (iblk0 V c 2 t) (iblk0 V c 3 t) (ix2 p q)
    = table V c (((cfg0.win 4).blk t).view.emb (ix2 p q))
  rw [e]
  exact block_rows (V c main_arg0) (V c main_arg2) (V c main_v0) (V c main_arg4)
    (iblk0 V c 0 t) (iblk0 V c 1 t) (iblk0 V c 2 t) (iblk0 V c 3 t) t.val
    (fun p j r hr => rows_block V c t p j r hr) (w1_block V c t) (bias_block V c t) (w2_block V c t)
    p q ⟨t.val * 2000 + p.val, hr⟩ rfl

/-- An index of the output array is in point t's block iff each coordinate is in the block's range on its axis. -/
theorem mem_block (t : Fin cfg0.N) (i : S100000x64.Idx) :
    i ∈ ((cfg0.win 4).blk t).view.set ↔ ∀ a : Fin 2, win0_4.index t a * S2000x64.size a ≤ (i a).val
      ∧ (i a).val < win0_4.index t a * S2000x64.size a + S2000x64.size a := by
  show i ∈ ((View.whole main_v1).slice (win0_4.rect t)).set ↔ _
  rw [View.set_slice_whole, Rect.mem_set_unit]
  exact Iff.rfl

/-- Every entry of the output array is written: row r by the point r / 2000. -/
theorem covered (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, -, -, -, -, e0, e1⟩ := index_maps t
  refine ⟨t, flush0_4 t, ?_⟩
  rw [mem_block]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 64 ≤ (i 1).val ∧ (i 1).val < win0_4.index t (1 : Fin 2) * 64 + 64
    omega

/-- What the first kernel leaves in its output array, whatever the region finds in its operands: the projected node table. -/
theorem arr_proj (c : Dev nD) :
    ((dat0 (F := Ideal) V c).arrAt 4 cfg0.N : S100000x64.Idx → EReal)
      = GcnSpec.proj (V c main_arg0) (V c main_arg2) (fun k => (V c main_v0 : S1x128.Idx → EReal) (ix2 0 k)) (V c main_arg4) :=
  (dat0 (F := Ideal) V c).arrAt_eq_of_cover 4 (table V c) (fun t _ => flushed_eq V c t) covered

end Cert.KernelIdeal.ProjValue

end
-- ==== Proof.MsgValue.lean ====
import proofs.«108850_j59399397704019_1_alg».proof.Proof.Gen.KernelIdeal.Frame
import Idealize.ShloMosaic.PureOps.Ideal
import Idealize.ShloMosaic.Lib.ValueIdx
import Idealize.ShloMosaic.Lib.ValueLayout
import Idealize.ShloMosaic.Lib.Pipeline.Value

noncomputable section

open scoped BigOperators

namespace Cert.KernelIdeal.MsgValue

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The second kernel's two operand arrays as the region finds them, at their literal types. -/
abbrev rowsArr (c : Dev nD) : FVec Ideal S1703936x64 .f32 := V c main_v45
abbrev colArr (c : Dev nD) : FVec Ideal S1703936x1 .f32 := V c main_v38

/-! ## The body at one entry of a block -/

/-- Entry (p, q) of what the body stores: entry (p, q) of the block of rows times entry (p, 0) of the block of the
    column (the two casts are to the operands' own shapes, the column is repeated along the second axis). -/
theorem body_apply (x0 : Vec Ideal S8192x64 .f32) (x1 : Vec Ideal S8192x1 .f32) (p : Fin 8192) (q : Fin 64) :
    (k1_pay1 (F := Ideal) x0 x1 : S8192x64.Idx → EReal) (ix2 p q)
      = (x0 : S8192x64.Idx → EReal) (ix2 p q) * (x1 : S8192x1.Idx → EReal) (ix2 p 0) := by
  unfold k1_pay1
  rw [shapeCast_self, shapeCast_self, mulf_apply]
  refine congrArg (fun z : EReal => (x0 : S8192x64.Idx → EReal) (ix2 p q) * z) ?_
  exact broadcastTo_apply (x1 : S8192x1.Idx → EReal) broadcasts_S8192x1_S8192x64 (ix2 p q) (ix2 p 0)
    (fun a => by match a with | ⟨0, _⟩ => rfl | ⟨1, _⟩ => rfl)

/-! ## The three windows move together: block t of each is rows 8192·t … 8192·t + 8191 -/

theorem hz : (![0, 0] : Fin 2 → Nat) = fun _ => 0 := funext fun a => by fin_cases a <;> rfl

/-- The printed index maps, decided over the 208 points: every window's block index at point t is (t, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Entry (p, q) of the block of rows at point t is entry (8192·t + p, q) of the array of rows. -/
theorem rows_block (c : Dev nD) (t : Fin cfg1.N) (p : Fin 8192) (q : Fin 64) (n : Fin 1703936)
    (hn : n.val = t.val * 8192 + p.val) :
    (iblk1 (F := Ideal) V c 0 t : S8192x64.Idx → EReal) (ix2 p q) = rowsArr V c (ix2 n q) := by
  obtain ⟨e0, e1, -⟩ := block_index t
  unfold iblk1
  rw [View.read_apply]
  show V c main_v45 _ = V c main_v45 _
  congr 1
  funext a
  apply Fin.ext
  match a with
  | ⟨0, _⟩ => show win1_0.index t (0 : Fin 2) * 8192 + 1 * p.val = n.val; rw [e0, hn]; omega
  | ⟨1, _⟩ => show win1_0.index t (1 : Fin 2) * 64 + 1 * q.val = q.val; rw [e1]; omega

/-- Entry (p, 0) of the block of the column at point t is entry (8192·t + p, 0) of the column. -/
theorem col_block (c : Dev nD) (t : Fin cfg1.N) (p : Fin 8192) (n : Fin 1703936)
    (hn : n.val = t.val * 8192 + p.val) :
    (iblk1 (F := Ideal) V c 1 t : S8192x1.Idx → EReal) (ix2 p 0) = colArr V c (ix2 n 0) := by
  obtain ⟨-, -, e0, e1, -⟩ := block_index t
  unfold iblk1
  rw [View.read_apply]
  show V c main_v38 _ = V c main_v38 _
  congr 1
  funext a
  apply Fin.ext
  match a with
  | ⟨0, _⟩ => show win1_1.index t (0 : Fin 2) * 8192 + 1 * p.val = n.val; rw [e0, hn]; omega
  | ⟨1, _⟩ => show win1_1.index t (1 : Fin 2) * 1 + 1 * 0 = 0; rw [e1]

/-! ## From the blocks to the array -/

/-- What the output array ends holding: row i₀ of the array of rows times entry i₀ of the column. -/
abbrev scaled (c : Dev nD) : S1703936x64.Idx → EReal :=
  fun i => rowsArr V c i * colArr V c (ix2 (i 0) 0)

/-- Entry (p, q) of what the body stores at point t, from the two operand arrays: row 8192·t + p, scaled. -/
theorem point_apply (c : Dev nD) (t : Fin cfg1.N) (p : Fin 8192) (q : Fin 64) (n : Fin 1703936)
    (hn : n.val = t.val * 8192 + p.val) :
    (k1_pay1 (F := Ideal) (iblk1 V c 0 t) (iblk1 V c 1 t) : S8192x64.Idx → EReal) (ix2 p q)
      = rowsArr V c (ix2 n q) * colArr V c (ix2 n 0) :=
  (body_apply _ _ p q).trans (by rw [rows_block V c t p q n hn, col_block V c t p n hn])

/-- WHAT POINT t WRITES BACK is block t of `scaled`: the one store covers the staging buffer, both loads read whole
    blocks, and the output's block at point t sits at the same rows as the operands' blocks. -/
theorem flushed_eq (c : Dev nD) (t : Fin cfg1.N) :
    (dat1 (F := Ideal) V c).flushed 2 t = ((cfg1.win 2).blk t).view.read (Elt Ideal) (scaled V c) := by
  show (cfg1.win 2).cut (grid1.coords t) ((dat1 V c).after 2 t) = _
  rw [after1_2]
  unfold out1_2
  rw [View.canon_unit_zero hz]
  simp only [View.ld_unit_zero (S := S8192x64) hz, View.ld_unit_zero (S := S8192x1) hz]
  obtain ⟨-, -, -, -, e4, e5⟩ := block_index t
  have hN : cfg1.N = 208 := N_1
  have ht : t.val < 208 := hN ▸ t.isLt
  funext j
  have hj0 : (j 0).val < 8192 := (j 0).isLt
  have hemb : ((cfg1.win 2).blk t).view.emb j
      = (ix2 (⟨t.val * 8192 + (j 0).val, by omega⟩ : Fin 1703936) (j 1) : S1703936x64.Idx) := by
    funext a
    apply Fin.ext
    match a with
    | ⟨0, _⟩ => show win1_2.index t (0 : Fin 2) * 8192 + 1 * (j 0).val = t.val * 8192 + (j 0).val; rw [e4]; omega
    | ⟨1, _⟩ => show win1_2.index t (1 : Fin 2) * 64 + 1 * (j 1).val = (j 1).val; rw [e5]; omega
  show (k1_pay1 (F := Ideal) (iblk1 V c 0 t) (iblk1 V c 1 t) : S8192x64.Idx → EReal) j
      = scaled V c (((cfg1.win 2).blk t).view.emb j)
  rw [hemb]
  exact (congrArg (k1_pay1 (F := Ideal) (iblk1 V c 0 t) (iblk1 V c 1 t) : S8192x64.Idx → EReal) (eq_ix2 j)).trans
    (point_apply V c t (j 0) (j 1) _ rfl)

/-- An index of the output array is in point t's block iff each coordinate is in the block's range on its axis. -/
theorem mem_blk (t : Fin cfg1.N) (i : S1703936x64.Idx) :
    i ∈ ((cfg1.win 2).blk t).view.set
      ↔ ∀ a : Fin 2, win1_2.index t a * S8192x64.size a ≤ (i a).val
          ∧ (i a).val < win1_2.index t a * S8192x64.size a + S8192x64.size a := by
  show i ∈ ((View.whole main_v46).slice (win1_2.rect t)).set ↔ _
  rw [View.set_slice_whole, Rect.mem_set_unit]
  exact Iff.rfl

/-- The 208 blocks of 8192 rows fill the array: row r is in the block of point r / 8192. -/
theorem covered (i : S1703936x64.Idx) :
    ∃ t : Fin cfg1.N, (cfg1.win 2).flush t = true ∧ i ∈ ((cfg1.win 2).blk t).view.set := by
  have hN : cfg1.N = 208 := N_1
  have hi0 : (i 0).val < 1703936 := (i 0).isLt
  have hi1 : (i 1).val < 64 := (i 1).isLt
  let t : Fin cfg1.N := ⟨(i 0).val / 8192, by rw [hN]; omega⟩
  have htv : t.val = (i 0).val / 8192 := rfl
  obtain ⟨-, -, -, -, e4, e5⟩ := block_index t
  refine ⟨t, flush1_2 t, ?_⟩
  rw [mem_blk]
  intro a
  match a with
  | ⟨0, _⟩ =>
    show win1_2.index t (0 : Fin 2) * 8192 ≤ (i 0).val ∧ (i 0).val < win1_2.index t (0 : Fin 2) * 8192 + 8192
    rw [e4, htv]; omega
  | ⟨1, _⟩ =>
    show win1_2.index t (1 : Fin 2) * 64 ≤ (i 1).val ∧ (i 1).val < win1_2.index t (1 : Fin 2) * 64 + 64
    rw [e5]; omega

/-- THE ARRAY after the region: `scaled` of the two operand arrays as the region finds them. -/
theorem final (c : Dev nD) : (dat1 (F := Ideal) V c).arrAt 2 cfg1.N = scaled V c :=
  (dat1 (F := Ideal) V c).arrAt_eq_of_cover 2 (scaled V c) (fun t _ => flushed_eq V c t) covered

/-- What the second kernel leaves in its output array, whatever the region finds in its operands: every row of the first
    operand scaled by the second operand's entry of that row. -/
theorem arr_msg (c : Dev nD) (n : Fin 1703936) (k : Fin 64) :
    ((dat1 (F := Ideal) V c).arrAt 2 cfg1.N : S1703936x64.Idx → EReal) (ix2 n k)
      = rowsArr V c (ix2 n k) * colArr V c (ix2 n 0) := by
  rw [final V c]

end Cert.KernelIdeal.MsgValue

end
-- ==== Proof.KernelValue.lean ====
/-
  The second program's result as a function of its arguments: the graph-convolution layer of `Spec.lean` over the
  program's own edge list and weights. The run leaves the result buffer at the last host stretch's value of what the
  second kernel wrote (`HostRead.W7_v52`); those rows are the gathered rows of the first kernel's table scaled by the
  lengthened weights (`MsgValue.arr_msg` at what the host put in the kernel's operands), so the segment sum over the
  lengthened edge list is the one over the true edges (`Pad.tail_eq_out`); and the first kernel's table is the projected
  node table (`ProjValue.arr_proj` at the launch contents, the bias read through the host's reshape to one row).
-/
import proofs.«108850_j59399397704019_1_alg».proof.Proof.KernelRun
import proofs.«108850_j59399397704019_1_alg».proof.Proof.KernelHost
import proofs.«108850_j59399397704019_1_alg».proof.Proof.KernelPad
import proofs.«108850_j59399397704019_1_alg».proof.Proof.ProjValue
import proofs.«108850_j59399397704019_1_alg».proof.Proof.MsgValue

noncomputable section

namespace Cert.KernelIdeal.Result

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The layer's result over the program's arguments on core `c`. -/
def res (c : Dev nD) : S100000x64.Idx → EReal :=
  GcnSpec.out
    (GcnSpec.proj (m ((c.tc : Thread nD τ).loc main_arg0)) (m ((c.tc : Thread nD τ).loc main_arg2))
      (fun k => (m ((c.tc : Thread nD τ).loc main_arg3) : S128.Idx → EReal) (ix1 k)) (m ((c.tc : Thread nD τ).loc main_arg4)))
    (fun n => Term.srcT (m ((c.tc : Thread nD τ).loc main_arg1)) (ix1 n))
    (fun n => Term.dstT (m ((c.tc : Thread nD τ).loc main_arg1)) (ix1 n))
    (fun n => Term.normT (m ((c.tc : Thread nD τ).loc main_arg1)) (ix1 n))
    (fun j => (m ((c.tc : Thread nD τ).loc main_arg5) : S64.Idx → EReal) (ix1 j))

/-- The bias vector reshaped to one row reads, at (0, k), the vector's entry k. -/
theorem bias_row (b : S128.Idx → EReal) (k : Fin 128) :
    shapeCast S1x128 b Facts₀.shapeCasts_S128_S1x128 (ix2 (0 : Fin 1) k) = b (ix1 k) :=
  (shapeCast_addUnit_apply ![128] b Facts₀.shapeCasts_S128_S1x128 (ix2 (0 : Fin 1) k)).trans
    (congrArg b (funext fun a => match a with | ⟨0, _⟩ => rfl))

/-- The first kernel's table at the launch contents is the projected node table. -/
theorem table_eq (c : Dev nD) :
    ((dat0 (F := Ideal) (V1 m ρ) c).arrAt 4 cfg0.N : S100000x64.Idx → EReal)
      = GcnSpec.proj (m ((c.tc : Thread nD τ).loc main_arg0)) (m ((c.tc : Thread nD τ).loc main_arg2))
          (fun k => (m ((c.tc : Thread nD τ).loc main_arg3) : S128.Idx → EReal) (ix1 k)) (m ((c.tc : Thread nD τ).loc main_arg4)) := by
  rw [ProjValue.arr_proj (V1 m ρ) c, HostRead.V1_arg0, HostRead.V1_arg2, HostRead.V1_arg4, HostRead.V1_v0]
  congr 1
  funext k
  exact bias_row _ k

/-- The result buffer at the last boundary is the layer's result. -/
theorem W7_eq (c : Dev nD) : (W7 m ρ c (Proc.devRef .tc main_v52) : S100000x64.Idx → EReal) = res m c := by
  have e1 : MsgValue.rowsArr (V5 m ρ) c
      = Term.gathered ((dat0 (F := Ideal) (V1 m ρ) c).arrAt 4 cfg0.N) (m ((c.tc : Thread nD τ).loc main_arg1)) :=
    HostRead.V5_v45 m ρ c
  have e2 : MsgValue.colArr (V5 m ρ) c = Term.normCol (m ((c.tc : Thread nD τ).loc main_arg1)) := HostRead.V5_v38 m ρ c
  rw [HostRead.W7_v52 m ρ c,
    Pad.tail_eq_out ((dat0 (F := Ideal) (V1 m ρ) c).arrAt 4 cfg0.N) _ _ _ (fun n k => by
      rw [MsgValue.arr_msg (V5 m ρ) c n k, e1, e2])]
  unfold res
  rw [table_eq m ρ c]

/-- Every weakly fair execution of the program terminates, nothing faulting, with the result buffer at the layer's result
    and the arguments as launched. -/
theorem run : θ_run defs (onTc (τ := τ) (main (F := Ideal))) ⟨m, fun _ => 0, ρ⟩ (fun r => ∀ c : Dev nD,
      r.2.mem ((c.tc : Thread nD τ).loc main_v52) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W7_eq m ρ c), (h c).2⟩) (Run.run_named (F := Ideal) m ρ)

end Cert.KernelIdeal.Result

end
-- ==== Proof.RefTerm.lean ====
/-
  The arrays the first program builds from the edge array, each as ONE function of it, at the extended reals: the edge
  list with its self loops (`srcT`, `dstT`), the in-degree and its inverse square root (`degT`, `dinvT`), the row-number
  words the NumPy way (`wrapT`) and the edge weights (`normT`).
-/
import proofs.«108850_j59399397704019_1_alg».proof.Proof.Gen.ReferenceIdeal
import Idealize.ShloMosaic.PureOps.Ideal

noncomputable section

namespace Cert.ReferenceIdeal.Term

open Idealize.ShloMosaic Cert.ReferenceIdeal Cert.ReferenceIdeal.Facts₀

/-- Row a (0: sources, 1: destinations) of the edge array, as a vector of 1,600,000 words. -/
def edgeRow0 (ei : IVec S2x1600000 32) : IVec S1600000 32 :=
  shapeCast S1600000 (extractStridedSlice S1x1600000 ![0, 0] ei slices_S2x1600000_S1x1600000_0_0) shapeCasts_S1x1600000_S1600000
def edgeRow1 (ei : IVec S2x1600000 32) : IVec S1600000 32 :=
  shapeCast S1600000 (extractStridedSlice S1x1600000 ![1, 0] ei slices_S2x1600000_S1x1600000_1_0) shapeCasts_S1x1600000_S1600000

/-- The source words of the 1,700,000 edges: the given ones, then node n for self loop n. -/
def srcT (ei : IVec S2x1600000 32) : IVec S1700000 32 :=
  concatenate S1700000 0 [⟨S1600000, edgeRow0 ei⟩, ⟨S100000, iotaInDim S100000 32 0⟩] concatenates_S1600000_S100000_S1700000_d0
/-- The destination words of the 1,700,000 edges. -/
def dstT (ei : IVec S2x1600000 32) : IVec S1700000 32 :=
  concatenate S1700000 0 [⟨S1600000, edgeRow1 ei⟩, ⟨S100000, iotaInDim S100000 32 0⟩] concatenates_S1600000_S100000_S1700000_d0

/-- The in-degree of every node: ones summed by destination. -/
def degT (ei : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (dstT ei))
    (broadcastInDim S1700000 ![] bcast_S_S1700000 (constant (F := Ideal) S_ .f32 0x3F800000#32))

/-- Its inverse square root where positive, zero elsewhere. -/
def dinvT (ei : IVec S2x1600000 32) : FVec Ideal S100000 .f32 :=
  select (cmpf .ogt (degT ei) (broadcastInDim S100000 ![] bcast_S_S100000 (constant (F := Ideal) S_ .f32 0x00000000#32)))
    (Host.rsqrt (degT ei))
    (broadcastInDim S100000 ![] bcast_S_S100000 (id (constant (F := Ideal) S_ .f32 0x00000000#32)))

/-- A vector of row-number words the NumPy way: 100000 added to the negative ones. -/
def wrapT (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- The weight of every edge: the inverse-root degrees of its two ends multiplied. -/
def normT (ei : IVec S2x1600000 32) : FVec Ideal S1700000 .f32 :=
  mulf (Host.gather gather_S100000_S1700000x1_S1700000_n_0_n_n_0_1_1 (dinvT ei)
          (broadcastInDim S1700000x1 ![0] bcast_S1700000_S1700000x1_0 (wrapT (srcT ei))))
       (Host.gather gather_S100000_S1700000x1_S1700000_n_0_n_n_0_1_1 (dinvT ei)
          (broadcastInDim S1700000x1 ![0] bcast_S1700000_S1700000x1_0 (wrapT (dstT ei))))

end Cert.ReferenceIdeal.Term

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.RefValue.lean ====
import proofs.«108850_j59399397704019_1_alg».proof.Proof.RefRun
import proofs.«108850_j59399397704019_1_alg».proof.Proof.RefTerm
import proofs.«108850_j59399397704019_1_alg».proof.Proof.Spec
import proofs.«108850_j59399397704019_1_alg».proof.Proof.LibDense
import proofs.«108850_j59399397704019_1_alg».proof.Proof.LibScatterRows
import proofs.«108850_j59399397704019_1_alg».proof.Proof.LibGatherRows
import proofs.«108850_j59399397704019_1_alg».proof.Proof.LibPlainOps
import proofs.«108850_j59399397704019_1_alg».proof.Proof.LibBiasRow
import Idealize.ShloMosaic.PureOps.Ideal
import Idealize.ShloMosaic.Lib.ValueIdx
import Idealize.ShloMosaic.Lib.ValueLayout
import Idealize.ShloMosaic.Lib.Pipeline.Value

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Facts₀

/-! ## The layouts, read at an entry -/

/-- The zero scalar laid out over the node table reads 0 everywhere. -/
private theorem zeros_apply (i : S100000x64.Idx) :
    broadcastInDim S100000x64 ![] Gen.bcast_S_S100000x64 (constant (F := Ideal) S_ .f32 0x00000000#32) i = (0 : EReal) := by
  have e : broadcastInDim S100000x64 ![] Gen.bcast_S_S100000x64 (constant (F := Ideal) S_ .f32 0x00000000#32) i
      = constant (F := Ideal) S_ .f32 0x00000000#32 ix0 :=
    broadcastInDim_apply ![] Gen.bcast_S_S100000x64 _ i ix0 fun a => a.elim0
  rw [e, constant_apply, Ideal.ofBits_zero_f32]

/-- A vector of 1,700,000 entries laid out as a column reads, at (n, 0), its entry n. -/
private theorem col_apply {α : Type} (v : S1700000.Idx → α) (n : Fin 1700000) :
    broadcastInDim S1700000x1 ![0] Gen.bcast_S1700000_S1700000x1_0 v (ix2 n (0 : Fin 1)) = v (ix1 n) :=
  broadcastInDim_apply ![0] Gen.bcast_S1700000_S1700000x1_0 v (ix2 n (0 : Fin 1)) (ix1 n) fun a =>
    match a with
    | ⟨0, _⟩ => by
      show n.val = if (1700000 : ℕ) = 1 then 0 else n.val
      rw [if_neg (by decide)]

/-- A column laid out over 64 columns reads, at (n, j), its entry (n, 0). -/
private theorem wide_apply {α : Type} (v : S1700000x1.Idx → α) (n : Fin 1700000) (j : Fin 64) :
    broadcastInDim S1700000x64 ![0, 1] Gen.bcast_S1700000x1_S1700000x64_0_1 v (ix2 n j) = v (ix2 n (0 : Fin 1)) :=
  broadcastInDim_apply ![0, 1] Gen.bcast_S1700000x1_S1700000x64_0_1 v (ix2 n j) (ix2 n (0 : Fin 1)) fun a =>
    match a with
    | ⟨0, _⟩ => by
      show n.val = if (1700000 : ℕ) = 1 then 0 else n.val
      rw [if_neg (by decide)]
    | ⟨1, _⟩ => by
      show (0 : ℕ) = if (1 : ℕ) = 1 then 0 else j.val
      rw [if_pos rfl]

/-- A word scalar laid out over the 1,700,000 edges reads its one word everywhere. -/
private theorem splatI_apply (b : BitVec 32) (n : Fin 1700000) :
    broadcastInDim S1700000 ![] Gen.bcast_S_S1700000 (constantI S_ 32 b) (ix1 n) = b :=
  (broadcastInDim_apply ![] Gen.bcast_S_S1700000 (constantI S_ 32 b) (ix1 n) ix0 fun a => a.elim0).trans
    (constantI_apply b ix0)

/-- The wrapped row-number words, one edge at a time: the wrap of that edge's word. -/
private theorem wrap_apply (s : IVec S1700000 32) (n : Fin 1700000) :
    Term.wrapT s (ix1 n) = GcnSpec.wrap (s (ix1 n)) := by
  unfold Term.wrapT GcnSpec.wrap
  rw [select_apply]
  show Scalar.select (IntOp.cmpi .slt (s (ix1 n)) (broadcastInDim S1700000 ![] Gen.bcast_S_S1700000 (constantI S_ 32 0#32) (ix1 n)))
      (IntOp.addi (s (ix1 n)) (broadcastInDim S1700000 ![] Gen.bcast_S_S1700000 (constantI S_ 32 100000#32) (ix1 n))) (s (ix1 n)) = _
  rw [splatI_apply, splatI_apply]

/-! ## The projected node table -/

/-- The two dense layers as the host spells them, at (r, j): the projected table's entry. -/
private theorem proj_apply (X : FVec Ideal S100000x64 .f32) (W1 : FVec Ideal S64x128 .f32) (b1 : FVec Ideal S128 .f32)
    (W2 : FVec Ideal S128x64 .f32) (r : Fin 100000) (j : Fin 64) :
    Host.dotGeneral dot_S100000x128_S128x64_S100000x64_1_0_0_1_n_n none
        (maximumf
          (addf (Host.dotGeneral dot_S100000x64_S64x128_S100000x128_1_0_0_1_n_n none X W1)
            (broadcastInDim S100000x128 ![0, 1] Gen.bcast_S1x128_S100000x128_0_1
              (broadcastInDim S1x128 ![1] Gen.bcast_S128_S1x128_1 b1)))
          (broadcastInDim S100000x128 ![] Gen.bcast_S_S100000x128 (constant (F := Ideal) S_ .f32 0x00000000#32)))
        W2 (ix2 r j)
      = GcnSpec.proj X W1 (fun k => b1 (ix1 k)) W2 (ix2 r j) := by
  rw [Cert.Dense.dotGeneral_plain_apply _ rfl rfl rfl rfl rfl rfl]
  show _ = ∑ k : Fin 128, GcnSpec.hidden X W1 (fun k => b1 (ix1 k)) r k * W2 (ix2 k j)
  refine Finset.sum_congr rfl fun k _ => ?_
  rw [Cert.Dense.host_relu_apply, Cert.Dense.host_affine_apply _ rfl rfl rfl rfl rfl rfl]
  rfl

/-! ## The result -/

/-- The layer's result at (g, j), written out. -/
private theorem out_apply (H : GcnSpec.SN.Idx → EReal) (src dst : Fin 1700000 → BitVec 32) (norm : Fin 1700000 → EReal)
    (b2 : Fin 64 → EReal) (g : Fin 100000) (j : Fin 64) :
    GcnSpec.out H src dst norm b2 (ix2 g j)
      = (∑ n : Fin 1700000, if (dst n).toInt = (g.val : ℤ) then H (ix2 (GcnSpec.row (src n)) j) * norm n else 0) + b2 j :=
  rfl

/-- A host scatter-add over the extended reals is the exact segment sum. -/
private theorem scatterAdd_eq {s si u : Shape} {w : ℕ} {φ : FTy} (d : ScatterDims s si u) (x : FVec Ideal s φ)
    (idx : IVec si w) (upd : FVec Ideal u φ) : Host.scatterAdd d x idx upd = Ideal.hostScatterAdd d x idx upd := rfl

/-- The row gather of a table by the wrapped source words reads, at (n, j), the table's row for edge n's word. -/
private theorem gather_row (H : FVec Ideal S100000x64 .f32) (s : IVec S1700000 32) (n : Fin 1700000) (j : Fin 64) :
    Host.gather gather_S100000x64_S1700000x1_S1700000x64_1_0_n_n_0_1_164 H
        (broadcastInDim S1700000x1 ![0] Gen.bcast_S1700000_S1700000x1_0 (Term.wrapT s)) (ix2 n j)
      = H (ix2 (GcnSpec.row (s (ix1 n))) j) := by
  rw [Cert.GatherRows.gather_rows_apply (by norm_num) _ rfl rfl rfl rfl rfl rfl rfl]
  refine congrArg (fun r : Fin 100000 => H (ix2 r j)) (Fin.ext ?_)
  show min (broadcastInDim S1700000x1 ![0] Gen.bcast_S1700000_S1700000x1_0 (Term.wrapT s) (ix2 n (0 : Fin 1))).toInt.toNat 99999
      = min (GcnSpec.wrap (s (ix1 n))).toInt.toNat 99999
  rw [col_apply, wrap_apply]

/-- The first program's result as one term of its six arguments, the edge-list sub-terms named: the scatter-add, by the
    destination words, of the gathered projected rows scaled by the edge weights, plus the bias row. -/
private def layer (X : FVec Ideal S100000x64 .f32) (W1 : FVec Ideal S64x128 .f32) (b1 : FVec Ideal S128 .f32)
    (W2 : FVec Ideal S128x64 .f32) (b2 : FVec Ideal S64 .f32) (ei : IVec S2x1600000 32) : FVec Ideal S100000x64 .f32 :=
  addf
    (Host.scatterAdd scatter_S100000x64_S1700000x1_S1700000x64_1_0_0_1
      (broadcastInDim S100000x64 ![] Gen.bcast_S_S100000x64 (constant (F := Ideal) S_ .f32 0x00000000#32))
      (broadcastInDim S1700000x1 ![0] Gen.bcast_S1700000_S1700000x1_0 (Term.dstT ei))
      (mulf
        (Host.gather gather_S100000x64_S1700000x1_S1700000x64_1_0_n_n_0_1_164
          (Host.dotGeneral dot_S100000x128_S128x64_S100000x64_1_0_0_1_n_n none
            (maximumf
              (addf (Host.dotGeneral dot_S100000x64_S64x128_S100000x128_1_0_0_1_n_n none X W1)
                (broadcastInDim S100000x128 ![0, 1] Gen.bcast_S1x128_S100000x128_0_1
                  (broadcastInDim S1x128 ![1] Gen.bcast_S128_S1x128_1 b1)))
              (broadcastInDim S100000x128 ![] Gen.bcast_S_S100000x128 (constant (F := Ideal) S_ .f32 0x00000000#32)))
            W2)
          (broadcastInDim S1700000x1 ![0] Gen.bcast_S1700000_S1700000x1_0 (Term.wrapT (Term.srcT ei))))
        (broadcastInDim S1700000x64 ![0, 1] Gen.bcast_S1700000x1_S1700000x64_0_1
          (broadcastInDim S1700000x1 ![0] Gen.bcast_S1700000_S1700000x1_0 (Term.normT ei)))))
    (broadcastInDim S100000x64 ![0, 1] Gen.bcast_S1x64_S100000x64_0_1
      (broadcastInDim S1x64 ![1] Gen.bcast_S64_S1x64_1 b2))

/-- That term at (g, j) is the layer's result: the bias entry added to the sum, over the edges whose destination word
    reads g, of the projected row of the edge's source times the edge's weight. -/
private theorem layer_apply (X : FVec Ideal S100000x64 .f32) (W1 : FVec Ideal S64x128 .f32) (b1 : FVec Ideal S128 .f32)
    (W2 : FVec Ideal S128x64 .f32) (b2 : FVec Ideal S64 .f32) (ei : IVec S2x1600000 32) (g : Fin 100000) (j : Fin 64) :
    layer X W1 b1 W2 b2 ei (ix2 g j)
      = GcnSpec.out (GcnSpec.proj X W1 (fun k => b1 (ix1 k)) W2) (fun n => Term.srcT ei (ix1 n))
          (fun n => Term.dstT ei (ix1 n)) (fun n => Term.normT ei (ix1 n)) (fun j => b2 (ix1 j)) (ix2 g j) := by
  unfold layer
  rw [addf_apply, Cert.BiasRow.layout_layout_apply]
  rw [scatterAdd_eq]
  rw [Cert.LibScatterRows.hostScatterAdd_rows _ rfl rfl rfl rfl, zeros_apply, zero_add, out_apply]
  refine congrArg (fun s : EReal => s + b2 (ix1 j)) (Finset.sum_congr rfl fun n _ => ?_)
  rw [col_apply, mulf_apply, wide_apply, col_apply, gather_row, proj_apply]

variable (m : (ℓ : Loc nD τ sig) → Buf (Elt Ideal) ℓ)

/-- The first program's result is that term of the launch contents: the edge-list sub-terms of the run are the named
    ones, unfolded. -/
private theorem res_shape (c : Dev nD) :
    (RunP.res_main_v51 (F := Ideal) m c : S100000x64.Idx → EReal)
      = layer (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg1)) := by
  unfold RunP.res_main_v51 layer Term.normT Term.dinvT Term.degT Term.wrapT Term.srcT Term.dstT Term.edgeRow0 Term.edgeRow1
  rfl

/-- The first program's result is the layer's result over its own edge list and weights. -/
theorem res_eq_out (c : Dev nD) :
    (RunP.res_out0 (F := Ideal) m c : S100000x64.Idx → EReal)
      = GcnSpec.out
          (GcnSpec.proj (m ((c.tc : Thread nD τ).loc main_arg0)) (m ((c.tc : Thread nD τ).loc main_arg2))
            (fun k => (m ((c.tc : Thread nD τ).loc main_arg3) : S128.Idx → EReal) (ix1 k)) (m ((c.tc : Thread nD τ).loc main_arg4)))
          (fun n => Term.srcT (m ((c.tc : Thread nD τ).loc main_arg1)) (ix1 n))
          (fun n => Term.dstT (m ((c.tc : Thread nD τ).loc main_arg1)) (ix1 n))
          (fun n => Term.normT (m ((c.tc : Thread nD τ).loc main_arg1)) (ix1 n))
          (fun j => (m ((c.tc : Thread nD τ).loc main_arg5) : S64.Idx → EReal) (ix1 j)) := by
  funext i
  obtain ⟨g, j, rfl⟩ : ∃ (g : Fin 100000) (j : Fin 64), i = ix2 g j := ⟨i 0, i 1, eq_ix2 i⟩
  exact (congrFun (res_shape m c) (ix2 g j)).trans (layer_apply _ _ _ _ _ _ g j)

end Cert.ReferenceIdeal.RefValue

end
-- ==== Proof.Bridge.lean ====
/-
  The two programs build the edge list, the degrees and the edge weights by the same host operations: each program's
  arrays are the same functions of the edge array. (The two texts differ only in which program's shape facts they cite,
  and a fact's proof does not matter.)
-/
import proofs.«108850_j59399397704019_1_alg».proof.Proof.KernelTerm
import proofs.«108850_j59399397704019_1_alg».proof.Proof.RefTerm

noncomputable section

namespace Cert.Bridge

open Idealize.ShloMosaic

abbrev SE : Shape := ⟨2, ![2, 1600000]⟩

theorem srcT_eq (ei : IVec SE 32) : Cert.ReferenceIdeal.Term.srcT ei = Cert.KernelIdeal.Term.srcT ei := rfl
theorem dstT_eq (ei : IVec SE 32) : Cert.ReferenceIdeal.Term.dstT ei = Cert.KernelIdeal.Term.dstT ei := rfl
theorem degT_eq (ei : IVec SE 32) : Cert.ReferenceIdeal.Term.degT ei = Cert.KernelIdeal.Term.degT ei := rfl
theorem dinvT_eq (ei : IVec SE 32) : Cert.ReferenceIdeal.Term.dinvT ei = Cert.KernelIdeal.Term.dinvT ei := rfl
theorem normT_eq (ei : IVec SE 32) : Cert.ReferenceIdeal.Term.normT ei = Cert.KernelIdeal.Term.normT ei := rfl

end Cert.Bridge

end
-- ==== Proof.lean ====
/-
  Both programs compute one graph-convolution layer over 100000 nodes and 1,700,000 edges (the given ones and one self
  loop per node): a dense layer with rectifier and a second dense layer give the projected node table; every edge adds
  the projected row of its source, scaled by the product of the inverse-root in-degrees of its two ends, into the row
  of its destination; the output bias is added. The first program computes the projected table and the scaling in two
  tiled kernels and, to fill whole blocks of 8192 edges, runs 3,936 more edges of weight zero, which add nothing over
  the extended reals. The second program is the plain host computation.

  `algebraic`: the kernel program's run ends with its result at the layer's result over its arguments
  (`KernelIdeal.Result.run`), the reference's at the same function (`RefValue.res_eq_out`); the two programs' edge lists
  and weights are the same functions of the edge array (`Bridge`), and the arguments agree. The three frames are the
  runs with the result dropped; nothing was rewritten by the idealization, so `preserves` is trivial.
-/
import proofs.«108850_j59399397704019_1_alg».proof.Defs
import proofs.«108850_j59399397704019_1_alg».proof.Proof.Gen.Kernel
import proofs.«108850_j59399397704019_1_alg».proof.Proof.Gen.Kernel.Frame
import proofs.«108850_j59399397704019_1_alg».proof.Proof.Gen.KernelIdeal
import proofs.«108850_j59399397704019_1_alg».proof.Proof.Gen.KernelIdeal.Frame
import proofs.«108850_j59399397704019_1_alg».proof.Proof.Gen.ReferenceIdeal
import proofs.«108850_j59399397704019_1_alg».proof.Proof.Gen.Pre_finite_inputs
import proofs.«108850_j59399397704019_1_alg».proof.Proof.KernelValue
import proofs.«108850_j59399397704019_1_alg».proof.Proof.RefValue
import proofs.«108850_j59399397704019_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

/-- From memories that agree on the arguments both programs end with the layer's result over those arguments. -/
theorem algebraic : Cert.algebraic_KernelIdeal_ReferenceIdeal := by
  intro m ρ m' ρ' _ hagree
  refine ⟨fun c => Cert.KernelIdeal.Result.res m c, Cert.KernelIdeal.Result.run m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5⟩ := hagree c
  refine (Cert.ReferenceIdeal.RefValue.res_eq_out m' c).trans ?_
  rw [h0, h1, h2, h3, h4, h5, Cert.Bridge.srcT_eq, Cert.Bridge.dstT_eq, Cert.Bridge.normT_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
